-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S400000x256 : Shape := ⟨2, ![400000, 256]⟩
abbrev S400000 : Shape := ⟨1, ![400000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S400000x256 : S_.BroadcastsInDim S400000x256 (![] : Fin 0 → Fin S400000x256.rank)
  reducesTo_S400000x256_S_d0_1 : S400000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_v48 main_v49 main_v50

def fn_part1 {F : FTy → Type} [FloatOps F] (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x256 .f32) (main_arg1 : FVec F S400000x256 .f32) (main_arg2 : IVec S400000 32) (main_arg3 : IVec S400000 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S400000x256 .f32 := Host.absf main_arg1
  let main_cst_0 : FVec F S_ .f32 := constant S_ .f32 0x7F800000#32
  let main_v5 : FVec F S400000x256 .f32 := broadcastInDim S400000x256 ![] bcast_S_S400000x256 main_cst_0
  let main_v6 : IVec S400000x256 1 := cmpf .olt main_v4 main_v5
  let main_c_1 : IVec S_ 1 := constantI S_ 1 1#1
  let main_v7 : IVec S_ 1 := (fun x v => Host.reduce IntOp.andi x v reducesTo_S400000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_v13 main_v16
-- ==== Kernel.lean ====
abbrev S100000x256 : Shape := ⟨2, ![100000, 256]⟩
abbrev S400000x256 : Shape := ⟨2, ![400000, 256]⟩
abbrev S400000 : Shape := ⟨1, ![400000]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1x1024 : Shape := ⟨2, ![1, 1024]⟩
abbrev S100000x1024 : Shape := ⟨2, ![100000, 1024]⟩
abbrev S2000x256 : Shape := ⟨2, ![2000, 256]⟩
abbrev S2000x1024 : Shape := ⟨2, ![2000, 1024]⟩
abbrev S1x256 : Shape := ⟨2, ![1, 256]⟩
abbrev S4000x256 : Shape := ⟨2, ![4000, 256]⟩
abbrev S_ : Shape := ⟨0, ![]⟩
abbrev S400000x1 : Shape := ⟨2, ![400000, 1]⟩

abbrev nBuf : Space → Nat
  | .hbm => 63
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S400000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x1024, .f32⟩
  | .hbm, ⟨19, _⟩ => ⟨S1024, .f32⟩
  | .hbm, ⟨20, _⟩ => ⟨S1x1024, .f32⟩
  | .hbm, ⟨21, _⟩ => ⟨S100000x1024, .f32⟩
  | .hbm, ⟨22, _⟩ => ⟨S100000x256, .f32⟩
  | .hbm, ⟨23, _⟩ => ⟨S100000x256, .f32⟩
  | .hbm, ⟨24, _⟩ => ⟨S100000x256, .f32⟩
  | .hbm, ⟨25, _⟩ => ⟨S100000x256, .f32⟩
  | .hbm, ⟨26, _⟩ => ⟨S256x256, .f32⟩
  | .hbm, ⟨27, _⟩ => ⟨S1x256, .f32⟩
  | .hbm, ⟨28, _⟩ => ⟨S400000x256, .f32⟩
  | .hbm, ⟨29, _⟩ => ⟨S_, .i32⟩
  | .hbm, ⟨30, _⟩ => ⟨S400000, .i32⟩
  | .hbm, ⟨31, _⟩ => ⟨S400000, .i1⟩
  | .hbm, ⟨32, _⟩ => ⟨S_, .i32⟩
  | .hbm, ⟨33, _⟩ => ⟨S400000, .i32⟩
  | .hbm, ⟨34, _⟩ => ⟨S400000, .i32⟩
  | .hbm, ⟨35, _⟩ => ⟨S400000, .i32⟩
  | .hbm, ⟨36, _⟩ => ⟨S400000x1, .i32⟩
  | .hbm, ⟨37, _⟩ => ⟨S400000x256, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000x256, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x256, .f32⟩
  | .hbm, ⟨56, _⟩ => ⟨S400000x256, .f32⟩
  | .hbm, ⟨57, _⟩ => ⟨S400000x256, .f32⟩
  | .hbm, ⟨58, _⟩ => ⟨S_, .f32⟩
  | .hbm, ⟨59, _⟩ => ⟨S100000x256, .f32⟩
  | .hbm, ⟨60, _⟩ => ⟨S400000x1, .i32⟩
  | .hbm, ⟨61, _⟩ => ⟨S100000x256, .f32⟩
  | .hbm, ⟨62, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x1024, .f32⟩
  | .local _ .vmem, ⟨3, _⟩ => ⟨S1x1024, .f32⟩
  | .local _ .vmem, ⟨4, _⟩ => ⟨S2000x1024, .f32⟩
  | .local _ .vmem, ⟨5, _⟩ => ⟨S2000x1024, .f32⟩
  | .local _ .vmem, ⟨6, _⟩ => ⟨S4000x256, .f32⟩
  | .local _ .vmem, ⟨7, _⟩ => ⟨S4000x256, .f32⟩
  | .local _ .vmem, ⟨8, _⟩ => ⟨S256x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_cst : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S256x256_S256x256_1_0 : S256x256.Transposes [1, 0] S256x256
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  shapeCasts_S1024_S1x1024 : S1024.ShapeCasts S1x1024
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  slices_S100000x1024_S100000x256_0_0 : S100000x1024.Slices ![0, 0] S100000x256
  slices_S100000x1024_S100000x256_0_256 : S100000x1024.Slices ![0, 256] S100000x256
  slices_S100000x1024_S100000x256_0_512 : S100000x1024.Slices ![0, 512] S100000x256
  slices_S100000x1024_S100000x256_0_768 : S100000x1024.Slices ![0, 768] S100000x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S400000 : S_.BroadcastsInDim S400000 (![] : Fin 0 → Fin S400000.rank)
  bcast_S400000_S400000x1_0 : S400000.BroadcastsInDim S400000x1 (![0] : Fin 1 → Fin S400000x1.rank)
  shapeCasts_S2000x256_S2000x256 : S2000x256.ShapeCasts S2000x256
  bcast_S_S100000x256 : S_.BroadcastsInDim S100000x256 (![] : Fin 0 → Fin S100000x256.rank)
  dot_S2000x256_S256x1024_S2000x1024_1_0_0_1_n_n_wf : DotDims.WF S2000x256 S256x1024 S2000x1024 [1] [0] [0] [1] [] []
  dot_S4000x256_S256x256_S4000x256_1_0_0_1_n_n_wf : DotDims.WF S4000x256 S256x256 S4000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1024.size a ≤ S100000x1024.size a
  hwx0_3 : ∀ i : grid0.Coords, EltTy.bits .f32 = 32 ∨ (Rect.block (s := S100000x1024) S2000x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S400000x256.size a
  hwx1_0 : ∀ i : grid1.Coords, EltTy.bits .f32 = 32 ∨ (Rect.block (s := S400000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S400000x256.size a
  hwx1_3 : ∀ i : grid1.Coords, EltTy.bits .f32 = 32 ∨ (Rect.block (s := S400000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S400000x256.size a
  hwx2_0 : ∀ i : grid2.Coords, EltTy.bits .f32 = 32 ∨ (Rect.block (s := S400000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S400000x256.size a
  hwx2_1 : ∀ i : grid2.Coords, EltTy.bits .f32 = 32 ∨ (Rect.block (s := S400000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S400000x256.size a
  hwx2_2 : ∀ i : grid2.Coords, EltTy.bits .f32 = 32 ∨ (Rect.block (s := S400000x256) S2000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S400000x256.size a
  hwx2_3 : ∀ i : grid2.Coords, EltTy.bits .f32 = 32 ∨ (Rect.block (s := S400000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S400000x256.size a
  hwx2_4 : ∀ i : grid2.Coords, EltTy.bits .f32 = 32 ∨ (Rect.block (s := S400000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S400000x256.size a
  hwx2_5 : ∀ i : grid2.Coords, EltTy.bits .f32 = 32 ∨ (Rect.block (s := S400000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S100000x256.size a
  hwx3_2 : ∀ i : grid3.Coords, EltTy.bits .f32 = 32 ∨ (Rect.block (s := S100000x256) S2000x256.size (cc3_transform_2 i) (hinb3_2 i)).WholeWords (EltTy.packing .f32)

variable [Facts₀]

def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36_1) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v11) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S400000x256 : Shape := ⟨2, ![400000, 256]⟩
abbrev S400000 : Shape := ⟨1, ![400000]⟩
abbrev S256x256 : Shape := ⟨2, ![256, 256]⟩
abbrev S256 : Shape := ⟨1, ![256]⟩
abbrev S1x256 : Shape := ⟨2, ![1, 256]⟩
abbrev S_ : Shape := ⟨0, ![]⟩
abbrev S400000x1 : Shape := ⟨2, ![400000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S400000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S100000x256, .f32⟩
  | .hbm, ⟨16, _⟩ => ⟨S1x256, .f32⟩
  | .hbm, ⟨17, _⟩ => ⟨S100000x256, .f32⟩
  | .hbm, ⟨18, _⟩ => ⟨S100000x256, .f32⟩
  | .hbm, ⟨19, _⟩ => ⟨S256x256, .f32⟩
  | .hbm, ⟨20, _⟩ => ⟨S100000x256, .f32⟩
  | .hbm, ⟨21, _⟩ => ⟨S1x256, .f32⟩
  | .hbm, ⟨22, _⟩ => ⟨S100000x256, .f32⟩
  | .hbm, ⟨23, _⟩ => ⟨S100000x256, .f32⟩
  | .hbm, ⟨24, _⟩ => ⟨S256x256, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S256x256, .f32⟩
  | .hbm, ⟨30, _⟩ => ⟨S400000x256, .f32⟩
  | .hbm, ⟨31, _⟩ => ⟨S1x256, .f32⟩
  | .hbm, ⟨32, _⟩ => ⟨S400000x256, .f32⟩
  | .hbm, ⟨33, _⟩ => ⟨S400000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x256, .f32⟩
  | .hbm, ⟨43, _⟩ => ⟨S400000x256, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x256, .f32⟩
  | .hbm, ⟨53, _⟩ => ⟨S400000x256, .f32⟩
  | .hbm, ⟨54, _⟩ => ⟨S_, .f32⟩
  | .hbm, ⟨55, _⟩ => ⟨S400000x256, .f32⟩
  | .hbm, ⟨56, _⟩ => ⟨S400000x256, .f32⟩
  | .hbm, ⟨57, _⟩ => ⟨S400000x256, .f32⟩
  | .hbm, ⟨58, _⟩ => ⟨S400000x256, .f32⟩
  | .hbm, ⟨59, _⟩ => ⟨S_, .f32⟩
  | .hbm, ⟨60, _⟩ => ⟨S400000x256, .f32⟩
  | .hbm, ⟨61, _⟩ => ⟨S400000x256, .f32⟩
  | .hbm, ⟨62, _⟩ => ⟨S_, .f32⟩
  | .hbm, ⟨63, _⟩ => ⟨S400000x256, .f32⟩
  | .hbm, ⟨64, _⟩ => ⟨S400000x256, .f32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x256, .f32⟩
  | .hbm, ⟨74, _⟩ => ⟨S400000x256, .f32⟩
  | .hbm, ⟨75, _⟩ => ⟨S_, .f32⟩
  | .hbm, ⟨76, _⟩ => ⟨S100000x256, .f32⟩
  | .hbm, ⟨77, _⟩ => ⟨S400000x1, .i32⟩
  | .hbm, ⟨78, _⟩ => ⟨S100000x256, .f32⟩
  | .hbm, ⟨79, _⟩ => ⟨S256x256, .f32⟩
  | .hbm, ⟨80, _⟩ => ⟨S100000x256, .f32⟩
  | .hbm, ⟨81, _⟩ => ⟨S1x256, .f32⟩
  | .hbm, ⟨82, _⟩ => ⟨S100000x256, .f32⟩
  | .hbm, ⟨83, _⟩ => ⟨S100000x256, .f32⟩
  | .hbm, ⟨84, _⟩ => ⟨S100000x256, .f32⟩
  | .hbm, ⟨85, _⟩ => ⟨S_, .f32⟩
  | .hbm, ⟨86, _⟩ => ⟨S100000x256, .f32⟩
  | .hbm, ⟨87, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_c_4 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1x256_S400000x256_0_1 : S1x256.BroadcastsInDim S400000x256 (![0, 1] : Fin 2 → Fin S400000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x256 : S_.BroadcastsInDim S400000x256 (![] : Fin 0 → Fin S400000x256.rank)
  bcast_S_S100000x256 : S_.BroadcastsInDim S100000x256 (![] : Fin 0 → Fin S100000x256.rank)
  dot_S100000x256_S256x256_S100000x256_1_0_0_1_n_n_wf : DotDims.WF S100000x256 S256x256 S100000x256 [1] [0] [0] [1] [] []
  dot_S400000x256_S256x256_S400000x256_1_0_0_1_n_n_wf : DotDims.WF S400000x256 S256x256 S400000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf

class Facts : Prop extends Facts₀ where

variable [Facts]
-- ==== Proof.KLaunch0.lean ====
/-
  The fused atom-side linear launch (grid of 50 row blocks of 2000 atoms): at a point the body reads a block of
  atom features, the whole 256 × 1024 stacked weight matrix and the 1 × 1024 stacked bias, and stores
  x · W + b over the whole 2000 × 1024 output block. Stated at a parameter `V`, the contents of the core's
  buffers when the launch is entered.
-/
import proofs.«122269_j22239340658714_1_alg».proof.Proof.Gen.Kernel.Launch
import proofs.«122269_j22239340658714_1_alg».proof.Proof.Gen.Kernel.Skeleton
import proofs.«122269_j22239340658714_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or kept from the
    point before (the weight and the bias are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each buffer whole. -/
abbrev r0x : Rect S2000x256 := Rect.unit (s := S2000x256) ![0, 0] S2000x256.size inb_S2000x256_S2000x256_0_0
abbrev r0w : Rect S256x1024 := Rect.unit (s := S256x1024) ![0, 0] S256x1024.size inb_S256x1024_S256x1024_0_0
abbrev r0b : Rect S1x1024 := Rect.unit (s := S1x1024) ![0, 0] S1x1024.size inb_S1x1024_S1x1024_0_0
abbrev r0o : Rect S2000x1024 := Rect.unit (s := S2000x1024) ![0, 0] S2000x1024.size inb_S2000x1024_S2000x1024_0_0

/-- What the body leaves in the output's staging buffer, from the three input blocks: its one store. -/
def out0_3 (x0 : Vec F S2000x256 .f32) (x1 : Vec F S256x1024 .f32) (x2 : Vec F S1x1024 .f32) : Vec F S2000x1024 .f32 :=
  View.canon [⟨r0o, k0_pay1 (View.ld x0 r0x) (View.ld x1 r0w) (View.ld x2 r0b)⟩]

theorem cover0_3 (p0 : Vec F S2000x1024 .f32) (y : S2000x1024.Idx) :
    ∃ pc ∈ ([⟨r0o, p0⟩] : List (View.Piece (Elt F) S2000x1024 .f32)), y ∈ pc.1.set :=
  View.cover_of_tiled [⟨r0o, p0⟩] S2000x1024.size (by rfl) y

set_option maxHeartbeats 1000000 in
/-- The body on whole staging buffers, the inputs' at contents `x0`, `x1`, `x2` and the output's at anything, runs
    to the continuation with the inputs as they were and the output at `out0_3 x0 x1 x2`. -/
theorem sound_kernel0 (c : Dev nD) (E : Set ℕ) (i : grid0.Coords) (arg1 : Memref sig .tc .vmem S2000x256 .f32) (harg1 : arg1.IsWhole)
    (arg2 : Memref sig .tc .vmem S256x1024 .f32) (harg2 : arg2.IsWhole) (arg3 : Memref sig .tc .vmem S1x1024 .f32) (harg3 : arg3.IsWhole)
    (arg4 : Memref sig .tc .vmem S2000x1024 .f32) (harg4 : arg4.IsWhole)
    (x0 : Vec F S2000x256 .f32) (x1 : Vec F S256x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the launch finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KLaunch1.lean ====
/-
  The bond-side linear launch (grid of 100 row blocks of 4000 bonds): at a point the body reads a block of
  bond features, the whole 256 × 256 weight matrix and the 1 × 256 bias, and stores
  x · W + b over the whole 4000 × 256 output block. Stated at a parameter `V`, the contents of the core's
  buffers when the launch is entered.
-/
import proofs.«122269_j22239340658714_1_alg».proof.Proof.Gen.Kernel.Launch
import proofs.«122269_j22239340658714_1_alg».proof.Proof.Gen.Kernel.Skeleton
import proofs.«122269_j22239340658714_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or kept from the
    point before (the weight and the bias are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each buffer whole. -/
abbrev r1x : Rect S4000x256 := Rect.unit (s := S4000x256) ![0, 0] S4000x256.size inb_S4000x256_S4000x256_0_0
abbrev r1w : Rect S256x256 := Rect.unit (s := S256x256) ![0, 0] S256x256.size inb_S256x256_S256x256_0_0
abbrev r1b : Rect S1x256 := Rect.unit (s := S1x256) ![0, 0] S1x256.size inb_S1x256_S1x256_0_0
abbrev r1o : Rect S4000x256 := Rect.unit (s := S4000x256) ![0, 0] S4000x256.size inb_S4000x256_S4000x256_0_0

/-- What the body leaves in the output's staging buffer, from the three input blocks: its one store. -/
def out1_3 (x0 : Vec F S4000x256 .f32) (x1 : Vec F S256x256 .f32) (x2 : Vec F S1x256 .f32) : Vec F S4000x256 .f32 :=
  View.canon [⟨r1o, k1_pay1 (View.ld x0 r1x) (View.ld x1 r1w) (View.ld x2 r1b)⟩]

theorem cover1_3 (p0 : Vec F S4000x256 .f32) (y : S4000x256.Idx) :
    ∃ pc ∈ ([⟨r1o, p0⟩] : List (View.Piece (Elt F) S4000x256 .f32)), y ∈ pc.1.set :=
  View.cover_of_tiled [⟨r1o, p0⟩] S4000x256.size (by rfl) y

set_option maxHeartbeats 1000000 in
/-- The body on whole staging buffers, the inputs' at contents `x0`, `x1`, `x2` and the output's at anything, runs
    to the continuation with the inputs as they were and the output at `out1_3 x0 x1 x2`. -/
theorem sound_kernel1 (c : Dev nD) (E : Set ℕ) (i : grid1.Coords) (arg1 : Memref sig .tc .vmem S4000x256 .f32) (harg1 : arg1.IsWhole)
    (arg2 : Memref sig .tc .vmem S256x256 .f32) (harg2 : arg2.IsWhole) (arg3 : Memref sig .tc .vmem S1x256 .f32) (harg3 : arg3.IsWhole)
    (arg4 : Memref sig .tc .vmem S4000x256 .f32) (harg4 : arg4.IsWhole)
    (x0 : Vec F S4000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the launch finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KLaunch2.lean ====
/-
  The edge launch (grid of 200 row blocks of 2000 edges): at a point the body reads four input blocks — the
  bond's linear image a, the gathered source term b, the gathered destination term c, the gathered value term v —
  and stores max((a + b) + c, 0) over the first output block and logistic((a + b) + c) · v over the second.
  Stated at a parameter `V`, the contents of the core's buffers when the launch is entered.
-/
import proofs.«122269_j22239340658714_1_alg».proof.Proof.Gen.Kernel.Launch
import proofs.«122269_j22239340658714_1_alg».proof.Proof.Gen.Kernel.Skeleton
import proofs.«122269_j22239340658714_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point (one sentence per input window). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: the whole 2000 × 256 block. -/
abbrev r2 : Rect S2000x256 := Rect.unit (s := S2000x256) ![0, 0] S2000x256.size inb_S2000x256_S2000x256_0_0

/-- What the body leaves in the first output's staging buffer: its one store there. -/
def out2_4 (x0 x1 x2 : Vec F S2000x256 .f32) : Vec F S2000x256 .f32 :=
  View.canon [⟨r2, k2_pay2 (View.ld x0 r2) (View.ld x1 r2) (View.ld x2 r2)⟩]

/-- What the body leaves in the second output's staging buffer: its one store there. -/
def out2_5 (x0 x1 x2 x3 : Vec F S2000x256 .f32) : Vec F S2000x256 .f32 :=
  View.canon [⟨r2, k2_pay3 (View.ld x0 r2) (View.ld x1 r2) (View.ld x2 r2) (View.ld x3 r2)⟩]

theorem cover2 (p0 : Vec F S2000x256 .f32) (y : S2000x256.Idx) :
    ∃ pc ∈ ([⟨r2, p0⟩] : List (View.Piece (Elt F) S2000x256 .f32)), y ∈ pc.1.set :=
  View.cover_of_tiled [⟨r2, p0⟩] S2000x256.size (by rfl) y

set_option maxHeartbeats 1000000 in
/-- The body on whole staging buffers, the inputs' at contents `x0 … x3` and the outputs' at anything, runs to the
    continuation with the inputs as they were and the outputs at `out2_4`, `out2_5` of them. -/
theorem sound_kernel2 (c : Dev nD) (E : Set ℕ) (i : grid2.Coords) (arg1 : Memref sig .tc .vmem S2000x256 .f32) (harg1 : arg1.IsWhole)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x256 .f32) (harg5 : arg5.IsWhole)
    (arg6 : Memref sig .tc .vmem S2000x256 .f32) (harg6 : arg6.IsWhole)
    (x0 x1 x2 x3 : Vec F S2000x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E
          (cc2__edge_elementwise_kernel i arg1 harg1 arg2 harg2 arg3 harg3 arg4 harg4 arg5 harg5 arg6 harg6) K := by
  simp only [cc2__edge_elementwise_kernel_eq_skeleton]; unfold cc2__edge_elementwise_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2 _)
  iexists _; isplitr
  swap; · iexact H5
  ipureintro
  exact View.read_writes_eq_canon _ _ _ (cover2 _)

/-- The pipeline's proof data on core `c`: the arrays as the launch finds them; after the body at point `t` each
    input's buffer at its block and each output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KLaunch3.lean ====
/-
  The finalising launch (grid of 50 row blocks of 2000 atoms): at a point the body reads the two input blocks
  (the atoms' own linear image and the aggregated messages), and stores max(a + b, 0) over the whole output block.
  Stated at a parameter `V`, the contents of the core's buffers when the launch is entered: the blocks the
  windows hold, what the body leaves in the output's staging buffer, the body's triple, the proof data of the
  pipeline and its obligation at every grid point.
-/
import proofs.«122269_j22239340658714_1_alg».proof.Proof.Gen.Kernel.Launch
import proofs.«122269_j22239340658714_1_alg».proof.Proof.Gen.Kernel.Skeleton
import proofs.«122269_j22239340658714_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body touches: the whole 2000 × 256 block. -/
abbrev r3 : Rect S2000x256 := Rect.unit (s := S2000x256) ![0, 0] S2000x256.size inb_S2000x256_S2000x256_0_0

/-- What the body leaves in the output's staging buffer, from the two input blocks: its one store. -/
def out3_2 (x0 x1 : Vec F S2000x256 .f32) : Vec F S2000x256 .f32 :=
  View.canon [⟨r3, k3_pay1 (View.ld x0 r3) (View.ld x1 r3)⟩]

/-- That store covers the buffer. -/
theorem cover3_2 (p0 : Vec F S2000x256 .f32) (y : S2000x256.Idx) :
    ∃ pc ∈ ([⟨r3, p0⟩] : List (View.Piece (Elt F) S2000x256 .f32)), y ∈ pc.1.set :=
  View.cover_of_tiled [⟨r3, p0⟩] S2000x256.size (by rfl) y

set_option maxHeartbeats 1000000 in
/-- The body on whole staging buffers, the inputs' at contents `x0`, `x1` and the output's at anything, runs to the
    continuation with the inputs as they were and the output at `out3_2 x0 x1`. -/
theorem sound_kernel3 (c : Dev nD) (E : Set ℕ) (i : grid3.Coords) (arg1 : Memref sig .tc .vmem S2000x256 .f32) (harg1 : arg1.IsWhole)
    (arg2 : Memref sig .tc .vmem S2000x256 .f32) (harg2 : arg2.IsWhole) (arg3 : Memref sig .tc .vmem S2000x256 .f32) (harg3 : arg3.IsWhole)
    (x0 x1 : Vec F S2000x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__atom_finalize_kernel i arg1 harg1 arg2 harg2 arg3 harg3) K := by
  simp only [cc3__atom_finalize_kernel_eq_skeleton]; unfold cc3__atom_finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the launch finds them; after the body at point `t` each
    input's buffer at its block and the output's at `out3_2` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KRun.lean ====
/-
  The whole program as a run of eight segments — four stretches of host operations, each followed by one
  kernel launch — from the launch memory to the return. The buffers' contents at every segment boundary are a
  fold from the launch memory (`W0 … W8`): a host stretch applies its operations, a launch replaces each of its
  output arrays by what its write-backs leave and keeps every other buffer. The run ends with every unscoped
  buffer at the last fold `W8`; from it: each argument array is read back to its launch contents, and each of
  the two results to the array its launch leaves.
-/
import proofs.«122269_j22239340658714_1_alg».proof.Proof.Gen.Kernel.Launch
import proofs.«122269_j22239340658714_1_alg».proof.Proof.Gen.Kernel.Skeleton
import proofs.«122269_j22239340658714_1_alg».proof.Proof.Gen.Kernel.Points
import proofs.«122269_j22239340658714_1_alg».proof.Proof.Gen.Kernel.Regions
import proofs.«122269_j22239340658714_1_alg».proof.Proof.KLaunch0
import proofs.«122269_j22239340658714_1_alg».proof.Proof.KLaunch1
import proofs.«122269_j22239340658714_1_alg».proof.Proof.KLaunch2
import proofs.«122269_j22239340658714_1_alg».proof.Proof.KLaunch3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)

/-- After the host operations before launch 0 (its entry contents). -/
abbrev W1 : Dev nD → Valuation τ sig (Elt F) := fun c => StableHlo.after hostOps0 (W0 m ρ c)
/-- The same read at the TensorCore's references (what launch 0's proof data take). -/
abbrev V1 : (c : Dev nD) → (b : Ref sig .tc) → Buf (Elt F) ((c : Thread nD τ).loc b) := fun c b => W1 m ρ c b
/-- At launch 0's exit: its arrays at what the pipeline leaves (an input as entered, an output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the launch as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves a buffer it does not write as it found it. -/
theorem W1_of (c : Dev nD) (r : Ref sig .tc) (h : r ∉ hostOps0_W) : W1 m ρ c r = W0 m ρ c r :=
  StableHlo.after_of_writes_sub hostOps0 _ hostOps0_writes h

/-- After the host operations before launch 1 (its entry contents). -/
abbrev W3 : Dev nD → Valuation τ sig (Elt F) := fun c => StableHlo.after hostOps1 (W2 m ρ c)
/-- The same read at the TensorCore's references (what launch 1's proof data take). -/
abbrev V3 : (c : Dev nD) → (b : Ref sig .tc) → Buf (Elt F) ((c : Thread nD τ).loc b) := fun c b => W3 m ρ c b
/-- At launch 1's exit: its arrays at what the pipeline leaves (an input as entered, an output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the launch as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves a buffer it does not write as it found it. -/
theorem W3_of (c : Dev nD) (r : Ref sig .tc) (h : r ∉ hostOps1_W) : W3 m ρ c r = W2 m ρ c r :=
  StableHlo.after_of_writes_sub hostOps1 _ hostOps1_writes h

/-- After the host operations before launch 2 (its entry contents). -/
abbrev W5 : Dev nD → Valuation τ sig (Elt F) := fun c => StableHlo.after hostOps2 (W4 m ρ c)
/-- The same read at the TensorCore's references (what launch 2's proof data take). -/
abbrev V5 : (c : Dev nD) → (b : Ref sig .tc) → Buf (Elt F) ((c : Thread nD τ).loc b) := fun c b => W5 m ρ c b
/-- At launch 2's exit: its arrays at what the pipeline leaves (an input as entered, an output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the launch as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves a buffer it does not write as it found it. -/
theorem W5_of (c : Dev nD) (r : Ref sig .tc) (h : r ∉ hostOps2_W) : W5 m ρ c r = W4 m ρ c r :=
  StableHlo.after_of_writes_sub hostOps2 _ hostOps2_writes h

/-- After the host operations before launch 3 (its entry contents). -/
abbrev W7 : Dev nD → Valuation τ sig (Elt F) := fun c => StableHlo.after hostOps3 (W6 m ρ c)
/-- The same read at the TensorCore's references (what launch 3's proof data take). -/
abbrev V7 : (c : Dev nD) → (b : Ref sig .tc) → Buf (Elt F) ((c : Thread nD τ).loc b) := fun c b => W7 m ρ c b
/-- At launch 3's exit: its arrays at what the pipeline leaves (an input as entered, an output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves the launch as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves a buffer it does not write as it found it. -/
theorem W7_of (c : Dev nD) (r : Ref sig .tc) (h : r ∉ hostOps3_W) : W7 m ρ c r = W6 m ρ c r :=
  StableHlo.after_of_writes_sub hostOps3 _ hostOps3_writes h

/-! ## The proof data family and the thread state -/

/-- No launch has a prefetched table. -/
abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 over the thread state: entered with every unscoped buffer at `W1`, left with them at `W2`. Its arrays
    are split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its arrays
    are split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered with every unscoped buffer at `W7`, left with them at `W8`. Its arrays
    are split out of the unscoped buffers and put back at the exit contents; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer of every core at the last fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Kernel.Fr

end
-- ==== Proof.KKept.lean ====
/-
  Reading the end of the run. No host operation writes an argument array and no launch has one as an output, so
  the last fold at an argument's buffer walks back to the launch memory: the frame. The two result buffers are
  read at what their launches leave: the atom result is the finalising launch's output array, the bond result the
  edge launch's first output array (nothing after that launch writes it).
-/
import proofs.«122269_j22239340658714_1_alg».proof.Proof.Gen.Kernel.Launch
import proofs.«122269_j22239340658714_1_alg».proof.Proof.Gen.Kernel.Skeleton
import proofs.«122269_j22239340658714_1_alg».proof.Proof.Gen.Kernel.Points
import proofs.«122269_j22239340658714_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no launch's array ends as launched. -/
theorem W8_untouched (c : Dev nD) (r : Ref sig .tc)
    (h8 : ∀ w, Pipeline.arrRef spec3 w ≠ r) (h7 : r ∉ hostOps3_W) (h6 : ∀ w, Pipeline.arrRef spec2 w ≠ r) (h5 : r ∉ hostOps2_W)
    (h4 : ∀ w, Pipeline.arrRef spec1 w ≠ r) (h3 : r ∉ hostOps1_W) (h2 : ∀ w, Pipeline.arrRef spec0 w ≠ r) (h1 : r ∉ hostOps0_W) :
    W8 m ρ c r = m ((c : Thread nD τ).loc r) :=
  (W8_of_ne m ρ c r h8).trans <| (W7_of m ρ c r h7).trans <| (W6_of_ne m ρ c r h6).trans <| (W5_of m ρ c r h5).trans <|
    (W4_of_ne m ρ c r h4).trans <| (W3_of m ρ c r h3).trans <| (W2_of_ne m ρ c r h2).trans <| (W1_of m ρ c r h1).trans rfl

/-! ## The arguments end as launched (the atom features are the first launch's input, the bond features the second's) -/

theorem W8_main_arg0 (c : Dev nD) : W8 m ρ c main_arg0 = m ((c : Thread nD τ).loc main_arg0) :=
  (W8_of_ne m ρ c main_arg0 (by decide)).trans <| (W7_of m ρ c main_arg0 (by decide)).trans <| (W6_of_ne m ρ c main_arg0 (by decide)).trans <|
    (W5_of m ρ c main_arg0 (by decide)).trans <| (W4_of_ne m ρ c main_arg0 (by decide)).trans <| (W3_of m ρ c main_arg0 (by decide)).trans <|
    (W2_in m ρ c 0 rfl).trans <| (W1_of m ρ c main_arg0 (by decide)).trans rfl
theorem W8_main_arg1 (c : Dev nD) : W8 m ρ c main_arg1 = m ((c : Thread nD τ).loc main_arg1) :=
  (W8_of_ne m ρ c main_arg1 (by decide)).trans <| (W7_of m ρ c main_arg1 (by decide)).trans <| (W6_of_ne m ρ c main_arg1 (by decide)).trans <|
    (W5_of m ρ c main_arg1 (by decide)).trans <| (W4_in m ρ c 0 rfl).trans <| (W3_of m ρ c main_arg1 (by decide)).trans <|
    (W2_of_ne m ρ c main_arg1 (by decide)).trans <| (W1_of m ρ c main_arg1 (by decide)).trans rfl
theorem W8_main_arg2 (c : Dev nD) : W8 m ρ c main_arg2 = m ((c : Thread nD τ).loc main_arg2) :=
  W8_untouched m ρ c main_arg2 (by decide) (by decide) (by decide) (by decide) (by decide) (by decide) (by decide) (by decide)
theorem W8_main_arg3 (c : Dev nD) : W8 m ρ c main_arg3 = m ((c : Thread nD τ).loc main_arg3) :=
  W8_untouched m ρ c main_arg3 (by decide) (by decide) (by decide) (by decide) (by decide) (by decide) (by decide) (by decide)
theorem W8_main_arg4 (c : Dev nD) : W8 m ρ c main_arg4 = m ((c : Thread nD τ).loc main_arg4) :=
  W8_untouched m ρ c main_arg4 (by decide) (by decide) (by decide) (by decide) (by decide) (by decide) (by decide) (by decide)
theorem W8_main_arg5 (c : Dev nD) : W8 m ρ c main_arg5 = m ((c : Thread nD τ).loc main_arg5) :=
  W8_untouched m ρ c main_arg5 (by decide) (by decide) (by decide) (by decide) (by decide) (by decide) (by decide) (by decide)
theorem W8_main_arg6 (c : Dev nD) : W8 m ρ c main_arg6 = m ((c : Thread nD τ).loc main_arg6) :=
  W8_untouched m ρ c main_arg6 (by decide) (by decide) (by decide) (by decide) (by decide) (by decide) (by decide) (by decide)
theorem W8_main_arg7 (c : Dev nD) : W8 m ρ c main_arg7 = m ((c : Thread nD τ).loc main_arg7) :=
  W8_untouched m ρ c main_arg7 (by decide) (by decide) (by decide) (by decide) (by decide) (by decide) (by decide) (by decide)
theorem W8_main_arg8 (c : Dev nD) : W8 m ρ c main_arg8 = m ((c : Thread nD τ).loc main_arg8) :=
  W8_untouched m ρ c main_arg8 (by decide) (by decide) (by decide) (by decide) (by decide) (by decide) (by decide) (by decide)
theorem W8_main_arg9 (c : Dev nD) : W8 m ρ c main_arg9 = m ((c : Thread nD τ).loc main_arg9) :=
  W8_untouched m ρ c main_arg9 (by decide) (by decide) (by decide) (by decide) (by decide) (by decide) (by decide) (by decide)
theorem W8_main_arg10 (c : Dev nD) : W8 m ρ c main_arg10 = m ((c : Thread nD τ).loc main_arg10) :=
  W8_untouched m ρ c main_arg10 (by decide) (by decide) (by decide) (by decide) (by decide) (by decide) (by decide) (by decide)
theorem W8_main_arg11 (c : Dev nD) : W8 m ρ c main_arg11 = m ((c : Thread nD τ).loc main_arg11) :=
  W8_untouched m ρ c main_arg11 (by decide) (by decide) (by decide) (by decide) (by decide) (by decide) (by decide) (by decide)
theorem W8_main_arg12 (c : Dev nD) : W8 m ρ c main_arg12 = m ((c : Thread nD τ).loc main_arg12) :=
  W8_untouched m ρ c main_arg12 (by decide) (by decide) (by decide) (by decide) (by decide) (by decide) (by decide) (by decide)
theorem W8_main_arg13 (c : Dev nD) : W8 m ρ c main_arg13 = m ((c : Thread nD τ).loc main_arg13) :=
  W8_untouched m ρ c main_arg13 (by decide) (by decide) (by decide) (by decide) (by decide) (by decide) (by decide) (by decide)

/-! ## The results -/

/-- The atom result: the finalising launch's output array. -/
theorem W8_main_v40 (c : Dev nD) : W8 m ρ c main_v40 = (dat3 (V7 m ρ) c).arrAt 2 cfg3.N :=
  W8_arr m ρ c 2

/-- The bond result: the edge launch's first output array, which nothing later writes. -/
theorem W8_main_v36_0 (c : Dev nD) : W8 m ρ c main_v36_0 = (dat2 (V5 m ρ) c).arrAt 4 cfg2.N :=
  (W8_of_ne m ρ c main_v36_0 (by decide)).trans <| (W7_of m ρ c main_v36_0 (by decide)).trans <| W6_arr m ρ c 4

/-! ## The frame -/

/-- From any memory with zero counters every weakly fair execution of the program terminates, nothing faulting, and
    every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩)
    (run_all m ρ)

end Cert.Kernel.Fr

end
-- ==== Proof.Launch0.lean ====
/-
  The fused atom-side linear launch (grid of 50 row blocks of 2000 atoms): at a point the body reads a block of
  atom features, the whole 256 × 1024 stacked weight matrix and the 1 × 1024 stacked bias, and stores
  x · W + b over the whole 2000 × 1024 output block. Stated at a parameter `V`, the contents of the core's
  buffers when the launch is entered.
-/
import proofs.«122269_j22239340658714_1_alg».proof.Proof.Gen.KernelIdeal.Launch
import proofs.«122269_j22239340658714_1_alg».proof.Proof.Gen.KernelIdeal.Skeleton
import proofs.«122269_j22239340658714_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or kept from the
    point before (the weight and the bias are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each buffer whole. -/
abbrev r0x : Rect S2000x256 := Rect.unit (s := S2000x256) ![0, 0] S2000x256.size inb_S2000x256_S2000x256_0_0
abbrev r0w : Rect S256x1024 := Rect.unit (s := S256x1024) ![0, 0] S256x1024.size inb_S256x1024_S256x1024_0_0
abbrev r0b : Rect S1x1024 := Rect.unit (s := S1x1024) ![0, 0] S1x1024.size inb_S1x1024_S1x1024_0_0
abbrev r0o : Rect S2000x1024 := Rect.unit (s := S2000x1024) ![0, 0] S2000x1024.size inb_S2000x1024_S2000x1024_0_0

/-- What the body leaves in the output's staging buffer, from the three input blocks: its one store. -/
def out0_3 (x0 : Vec F S2000x256 .f32) (x1 : Vec F S256x1024 .f32) (x2 : Vec F S1x1024 .f32) : Vec F S2000x1024 .f32 :=
  View.canon [⟨r0o, k0_pay1 (View.ld x0 r0x) (View.ld x1 r0w) (View.ld x2 r0b)⟩]

theorem cover0_3 (p0 : Vec F S2000x1024 .f32) (y : S2000x1024.Idx) :
    ∃ pc ∈ ([⟨r0o, p0⟩] : List (View.Piece (Elt F) S2000x1024 .f32)), y ∈ pc.1.set :=
  View.cover_of_tiled [⟨r0o, p0⟩] S2000x1024.size (by rfl) y

set_option maxHeartbeats 1000000 in
/-- The body on whole staging buffers, the inputs' at contents `x0`, `x1`, `x2` and the output's at anything, runs
    to the continuation with the inputs as they were and the output at `out0_3 x0 x1 x2`. -/
theorem sound_kernel0 (c : Dev nD) (E : Set ℕ) (i : grid0.Coords) (arg1 : Memref sig .tc .vmem S2000x256 .f32) (harg1 : arg1.IsWhole)
    (arg2 : Memref sig .tc .vmem S256x1024 .f32) (harg2 : arg2.IsWhole) (arg3 : Memref sig .tc .vmem S1x1024 .f32) (harg3 : arg3.IsWhole)
    (arg4 : Memref sig .tc .vmem S2000x1024 .f32) (harg4 : arg4.IsWhole)
    (x0 : Vec F S2000x256 .f32) (x1 : Vec F S256x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the launch finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Launch1.lean ====
/-
  The bond-side linear launch (grid of 100 row blocks of 4000 bonds): at a point the body reads a block of
  bond features, the whole 256 × 256 weight matrix and the 1 × 256 bias, and stores
  x · W + b over the whole 4000 × 256 output block. Stated at a parameter `V`, the contents of the core's
  buffers when the launch is entered.
-/
import proofs.«122269_j22239340658714_1_alg».proof.Proof.Gen.KernelIdeal.Launch
import proofs.«122269_j22239340658714_1_alg».proof.Proof.Gen.KernelIdeal.Skeleton
import proofs.«122269_j22239340658714_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or kept from the
    point before (the weight and the bias are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each buffer whole. -/
abbrev r1x : Rect S4000x256 := Rect.unit (s := S4000x256) ![0, 0] S4000x256.size inb_S4000x256_S4000x256_0_0
abbrev r1w : Rect S256x256 := Rect.unit (s := S256x256) ![0, 0] S256x256.size inb_S256x256_S256x256_0_0
abbrev r1b : Rect S1x256 := Rect.unit (s := S1x256) ![0, 0] S1x256.size inb_S1x256_S1x256_0_0
abbrev r1o : Rect S4000x256 := Rect.unit (s := S4000x256) ![0, 0] S4000x256.size inb_S4000x256_S4000x256_0_0

/-- What the body leaves in the output's staging buffer, from the three input blocks: its one store. -/
def out1_3 (x0 : Vec F S4000x256 .f32) (x1 : Vec F S256x256 .f32) (x2 : Vec F S1x256 .f32) : Vec F S4000x256 .f32 :=
  View.canon [⟨r1o, k1_pay1 (View.ld x0 r1x) (View.ld x1 r1w) (View.ld x2 r1b)⟩]

theorem cover1_3 (p0 : Vec F S4000x256 .f32) (y : S4000x256.Idx) :
    ∃ pc ∈ ([⟨r1o, p0⟩] : List (View.Piece (Elt F) S4000x256 .f32)), y ∈ pc.1.set :=
  View.cover_of_tiled [⟨r1o, p0⟩] S4000x256.size (by rfl) y

set_option maxHeartbeats 1000000 in
/-- The body on whole staging buffers, the inputs' at contents `x0`, `x1`, `x2` and the output's at anything, runs
    to the continuation with the inputs as they were and the output at `out1_3 x0 x1 x2`. -/
theorem sound_kernel1 (c : Dev nD) (E : Set ℕ) (i : grid1.Coords) (arg1 : Memref sig .tc .vmem S4000x256 .f32) (harg1 : arg1.IsWhole)
    (arg2 : Memref sig .tc .vmem S256x256 .f32) (harg2 : arg2.IsWhole) (arg3 : Memref sig .tc .vmem S1x256 .f32) (harg3 : arg3.IsWhole)
    (arg4 : Memref sig .tc .vmem S4000x256 .f32) (harg4 : arg4.IsWhole)
    (x0 : Vec F S4000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the launch finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Launch2.lean ====
/-
  The edge launch (grid of 200 row blocks of 2000 edges): at a point the body reads four input blocks — the
  bond's linear image a, the gathered source term b, the gathered destination term c, the gathered value term v —
  and stores max((a + b) + c, 0) over the first output block and logistic((a + b) + c) · v over the second.
  Stated at a parameter `V`, the contents of the core's buffers when the launch is entered.
-/
import proofs.«122269_j22239340658714_1_alg».proof.Proof.Gen.KernelIdeal.Launch
import proofs.«122269_j22239340658714_1_alg».proof.Proof.Gen.KernelIdeal.Skeleton
import proofs.«122269_j22239340658714_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point (one sentence per input window). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: the whole 2000 × 256 block. -/
abbrev r2 : Rect S2000x256 := Rect.unit (s := S2000x256) ![0, 0] S2000x256.size inb_S2000x256_S2000x256_0_0

/-- What the body leaves in the first output's staging buffer: its one store there. -/
def out2_4 (x0 x1 x2 : Vec F S2000x256 .f32) : Vec F S2000x256 .f32 :=
  View.canon [⟨r2, k2_pay2 (View.ld x0 r2) (View.ld x1 r2) (View.ld x2 r2)⟩]

/-- What the body leaves in the second output's staging buffer: its one store there. -/
def out2_5 (x0 x1 x2 x3 : Vec F S2000x256 .f32) : Vec F S2000x256 .f32 :=
  View.canon [⟨r2, k2_pay3 (View.ld x0 r2) (View.ld x1 r2) (View.ld x2 r2) (View.ld x3 r2)⟩]

theorem cover2 (p0 : Vec F S2000x256 .f32) (y : S2000x256.Idx) :
    ∃ pc ∈ ([⟨r2, p0⟩] : List (View.Piece (Elt F) S2000x256 .f32)), y ∈ pc.1.set :=
  View.cover_of_tiled [⟨r2, p0⟩] S2000x256.size (by rfl) y

set_option maxHeartbeats 1000000 in
/-- The body on whole staging buffers, the inputs' at contents `x0 … x3` and the outputs' at anything, runs to the
    continuation with the inputs as they were and the outputs at `out2_4`, `out2_5` of them. -/
theorem sound_kernel2 (c : Dev nD) (E : Set ℕ) (i : grid2.Coords) (arg1 : Memref sig .tc .vmem S2000x256 .f32) (harg1 : arg1.IsWhole)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x256 .f32) (harg5 : arg5.IsWhole)
    (arg6 : Memref sig .tc .vmem S2000x256 .f32) (harg6 : arg6.IsWhole)
    (x0 x1 x2 x3 : Vec F S2000x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E
          (cc2__edge_elementwise_kernel i arg1 harg1 arg2 harg2 arg3 harg3 arg4 harg4 arg5 harg5 arg6 harg6) K := by
  simp only [cc2__edge_elementwise_kernel_eq_skeleton]; unfold cc2__edge_elementwise_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2 _)
  iexists _; isplitr
  swap; · iexact H5
  ipureintro
  exact View.read_writes_eq_canon _ _ _ (cover2 _)

/-- The pipeline's proof data on core `c`: the arrays as the launch finds them; after the body at point `t` each
    input's buffer at its block and each output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Launch3.lean ====
/-
  The finalising launch (grid of 50 row blocks of 2000 atoms): at a point the body reads the two input blocks
  (the atoms' own linear image and the aggregated messages), and stores max(a + b, 0) over the whole output block.
  Stated at a parameter `V`, the contents of the core's buffers when the launch is entered: the blocks the
  windows hold, what the body leaves in the output's staging buffer, the body's triple, the proof data of the
  pipeline and its obligation at every grid point.
-/
import proofs.«122269_j22239340658714_1_alg».proof.Proof.Gen.KernelIdeal.Launch
import proofs.«122269_j22239340658714_1_alg».proof.Proof.Gen.KernelIdeal.Skeleton
import proofs.«122269_j22239340658714_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: rows 2000·t … 2000·t + 1999 of its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body touches: the whole 2000 × 256 block. -/
abbrev r3 : Rect S2000x256 := Rect.unit (s := S2000x256) ![0, 0] S2000x256.size inb_S2000x256_S2000x256_0_0

/-- What the body leaves in the output's staging buffer, from the two input blocks: its one store. -/
def out3_2 (x0 x1 : Vec F S2000x256 .f32) : Vec F S2000x256 .f32 :=
  View.canon [⟨r3, k3_pay1 (View.ld x0 r3) (View.ld x1 r3)⟩]

/-- That store covers the buffer. -/
theorem cover3_2 (p0 : Vec F S2000x256 .f32) (y : S2000x256.Idx) :
    ∃ pc ∈ ([⟨r3, p0⟩] : List (View.Piece (Elt F) S2000x256 .f32)), y ∈ pc.1.set :=
  View.cover_of_tiled [⟨r3, p0⟩] S2000x256.size (by rfl) y

set_option maxHeartbeats 1000000 in
/-- The body on whole staging buffers, the inputs' at contents `x0`, `x1` and the output's at anything, runs to the
    continuation with the inputs as they were and the output at `out3_2 x0 x1`. -/
theorem sound_kernel3 (c : Dev nD) (E : Set ℕ) (i : grid3.Coords) (arg1 : Memref sig .tc .vmem S2000x256 .f32) (harg1 : arg1.IsWhole)
    (arg2 : Memref sig .tc .vmem S2000x256 .f32) (harg2 : arg2.IsWhole) (arg3 : Memref sig .tc .vmem S2000x256 .f32) (harg3 : arg3.IsWhole)
    (x0 x1 : Vec F S2000x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__atom_finalize_kernel i arg1 harg1 arg2 harg2 arg3 harg3) K := by
  simp only [cc3__atom_finalize_kernel_eq_skeleton]; unfold cc3__atom_finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the launch finds them; after the body at point `t` each
    input's buffer at its block and the output's at `out3_2` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.Run.lean ====
/-
  The whole program as a run of eight segments — four stretches of host operations, each followed by one
  kernel launch — from the launch memory to the return. The buffers' contents at every segment boundary are a
  fold from the launch memory (`W0 … W8`): a host stretch applies its operations, a launch replaces each of its
  output arrays by what its write-backs leave and keeps every other buffer. The run ends with every unscoped
  buffer at the last fold `W8`; from it: each argument array is read back to its launch contents, and each of
  the two results to the array its launch leaves.
-/
import proofs.«122269_j22239340658714_1_alg».proof.Proof.Gen.KernelIdeal.Launch
import proofs.«122269_j22239340658714_1_alg».proof.Proof.Gen.KernelIdeal.Skeleton
import proofs.«122269_j22239340658714_1_alg».proof.Proof.Gen.KernelIdeal.Points
import proofs.«122269_j22239340658714_1_alg».proof.Proof.Gen.KernelIdeal.Regions
import proofs.«122269_j22239340658714_1_alg».proof.Proof.Launch0
import proofs.«122269_j22239340658714_1_alg».proof.Proof.Launch1
import proofs.«122269_j22239340658714_1_alg».proof.Proof.Launch2
import proofs.«122269_j22239340658714_1_alg».proof.Proof.Launch3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)

/-- After the host operations before launch 0 (its entry contents). -/
abbrev W1 : Dev nD → Valuation τ sig (Elt F) := fun c => StableHlo.after hostOps0 (W0 m ρ c)
/-- The same read at the TensorCore's references (what launch 0's proof data take). -/
abbrev V1 : (c : Dev nD) → (b : Ref sig .tc) → Buf (Elt F) ((c : Thread nD τ).loc b) := fun c b => W1 m ρ c b
/-- At launch 0's exit: its arrays at what the pipeline leaves (an input as entered, an output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the launch as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves a buffer it does not write as it found it. -/
theorem W1_of (c : Dev nD) (r : Ref sig .tc) (h : r ∉ hostOps0_W) : W1 m ρ c r = W0 m ρ c r :=
  StableHlo.after_of_writes_sub hostOps0 _ hostOps0_writes h

/-- After the host operations before launch 1 (its entry contents). -/
abbrev W3 : Dev nD → Valuation τ sig (Elt F) := fun c => StableHlo.after hostOps1 (W2 m ρ c)
/-- The same read at the TensorCore's references (what launch 1's proof data take). -/
abbrev V3 : (c : Dev nD) → (b : Ref sig .tc) → Buf (Elt F) ((c : Thread nD τ).loc b) := fun c b => W3 m ρ c b
/-- At launch 1's exit: its arrays at what the pipeline leaves (an input as entered, an output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the launch as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves a buffer it does not write as it found it. -/
theorem W3_of (c : Dev nD) (r : Ref sig .tc) (h : r ∉ hostOps1_W) : W3 m ρ c r = W2 m ρ c r :=
  StableHlo.after_of_writes_sub hostOps1 _ hostOps1_writes h

/-- After the host operations before launch 2 (its entry contents). -/
abbrev W5 : Dev nD → Valuation τ sig (Elt F) := fun c => StableHlo.after hostOps2 (W4 m ρ c)
/-- The same read at the TensorCore's references (what launch 2's proof data take). -/
abbrev V5 : (c : Dev nD) → (b : Ref sig .tc) → Buf (Elt F) ((c : Thread nD τ).loc b) := fun c b => W5 m ρ c b
/-- At launch 2's exit: its arrays at what the pipeline leaves (an input as entered, an output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the launch as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves a buffer it does not write as it found it. -/
theorem W5_of (c : Dev nD) (r : Ref sig .tc) (h : r ∉ hostOps2_W) : W5 m ρ c r = W4 m ρ c r :=
  StableHlo.after_of_writes_sub hostOps2 _ hostOps2_writes h

/-- After the host operations before launch 3 (its entry contents). -/
abbrev W7 : Dev nD → Valuation τ sig (Elt F) := fun c => StableHlo.after hostOps3 (W6 m ρ c)
/-- The same read at the TensorCore's references (what launch 3's proof data take). -/
abbrev V7 : (c : Dev nD) → (b : Ref sig .tc) → Buf (Elt F) ((c : Thread nD τ).loc b) := fun c b => W7 m ρ c b
/-- At launch 3's exit: its arrays at what the pipeline leaves (an input as entered, an output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves the launch as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A host stretch leaves a buffer it does not write as it found it. -/
theorem W7_of (c : Dev nD) (r : Ref sig .tc) (h : r ∉ hostOps3_W) : W7 m ρ c r = W6 m ρ c r :=
  StableHlo.after_of_writes_sub hostOps3 _ hostOps3_writes h

/-! ## The proof data family and the thread state -/

/-- No launch has a prefetched table. -/
abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 over the thread state: entered with every unscoped buffer at `W1`, left with them at `W2`. Its arrays
    are split out of the unscoped buffers and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its arrays
    are split out of the unscoped buffers and put back at the exit contents; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered with every unscoped buffer at `W7`, left with them at `W8`. Its arrays
    are split out of the unscoped buffers and put back at the exit contents; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer of every core at the last fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Fr

end
-- ==== Proof.Kept.lean ====
/-
  Reading the end of the run. No host operation writes an argument array and no launch has one as an output, so
  the last fold at an argument's buffer walks back to the launch memory: the frame. The two result buffers are
  read at what their launches leave: the atom result is the finalising launch's output array, the bond result the
  edge launch's first output array (nothing after that launch writes it).
-/
import proofs.«122269_j22239340658714_1_alg».proof.Proof.Gen.KernelIdeal.Launch
import proofs.«122269_j22239340658714_1_alg».proof.Proof.Gen.KernelIdeal.Skeleton
import proofs.«122269_j22239340658714_1_alg».proof.Proof.Gen.KernelIdeal.Points
import proofs.«122269_j22239340658714_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no launch's array ends as launched. -/
theorem W8_untouched (c : Dev nD) (r : Ref sig .tc)
    (h8 : ∀ w, Pipeline.arrRef spec3 w ≠ r) (h7 : r ∉ hostOps3_W) (h6 : ∀ w, Pipeline.arrRef spec2 w ≠ r) (h5 : r ∉ hostOps2_W)
    (h4 : ∀ w, Pipeline.arrRef spec1 w ≠ r) (h3 : r ∉ hostOps1_W) (h2 : ∀ w, Pipeline.arrRef spec0 w ≠ r) (h1 : r ∉ hostOps0_W) :
    W8 m ρ c r = m ((c : Thread nD τ).loc r) :=
  (W8_of_ne m ρ c r h8).trans <| (W7_of m ρ c r h7).trans <| (W6_of_ne m ρ c r h6).trans <| (W5_of m ρ c r h5).trans <|
    (W4_of_ne m ρ c r h4).trans <| (W3_of m ρ c r h3).trans <| (W2_of_ne m ρ c r h2).trans <| (W1_of m ρ c r h1).trans rfl

/-! ## The arguments end as launched (the atom features are the first launch's input, the bond features the second's) -/

theorem W8_main_arg0 (c : Dev nD) : W8 m ρ c main_arg0 = m ((c : Thread nD τ).loc main_arg0) :=
  (W8_of_ne m ρ c main_arg0 (by decide)).trans <| (W7_of m ρ c main_arg0 (by decide)).trans <| (W6_of_ne m ρ c main_arg0 (by decide)).trans <|
    (W5_of m ρ c main_arg0 (by decide)).trans <| (W4_of_ne m ρ c main_arg0 (by decide)).trans <| (W3_of m ρ c main_arg0 (by decide)).trans <|
    (W2_in m ρ c 0 rfl).trans <| (W1_of m ρ c main_arg0 (by decide)).trans rfl
theorem W8_main_arg1 (c : Dev nD) : W8 m ρ c main_arg1 = m ((c : Thread nD τ).loc main_arg1) :=
  (W8_of_ne m ρ c main_arg1 (by decide)).trans <| (W7_of m ρ c main_arg1 (by decide)).trans <| (W6_of_ne m ρ c main_arg1 (by decide)).trans <|
    (W5_of m ρ c main_arg1 (by decide)).trans <| (W4_in m ρ c 0 rfl).trans <| (W3_of m ρ c main_arg1 (by decide)).trans <|
    (W2_of_ne m ρ c main_arg1 (by decide)).trans <| (W1_of m ρ c main_arg1 (by decide)).trans rfl
theorem W8_main_arg2 (c : Dev nD) : W8 m ρ c main_arg2 = m ((c : Thread nD τ).loc main_arg2) :=
  W8_untouched m ρ c main_arg2 (by decide) (by decide) (by decide) (by decide) (by decide) (by decide) (by decide) (by decide)
theorem W8_main_arg3 (c : Dev nD) : W8 m ρ c main_arg3 = m ((c : Thread nD τ).loc main_arg3) :=
  W8_untouched m ρ c main_arg3 (by decide) (by decide) (by decide) (by decide) (by decide) (by decide) (by decide) (by decide)
theorem W8_main_arg4 (c : Dev nD) : W8 m ρ c main_arg4 = m ((c : Thread nD τ).loc main_arg4) :=
  W8_untouched m ρ c main_arg4 (by decide) (by decide) (by decide) (by decide) (by decide) (by decide) (by decide) (by decide)
theorem W8_main_arg5 (c : Dev nD) : W8 m ρ c main_arg5 = m ((c : Thread nD τ).loc main_arg5) :=
  W8_untouched m ρ c main_arg5 (by decide) (by decide) (by decide) (by decide) (by decide) (by decide) (by decide) (by decide)
theorem W8_main_arg6 (c : Dev nD) : W8 m ρ c main_arg6 = m ((c : Thread nD τ).loc main_arg6) :=
  W8_untouched m ρ c main_arg6 (by decide) (by decide) (by decide) (by decide) (by decide) (by decide) (by decide) (by decide)
theorem W8_main_arg7 (c : Dev nD) : W8 m ρ c main_arg7 = m ((c : Thread nD τ).loc main_arg7) :=
  W8_untouched m ρ c main_arg7 (by decide) (by decide) (by decide) (by decide) (by decide) (by decide) (by decide) (by decide)
theorem W8_main_arg8 (c : Dev nD) : W8 m ρ c main_arg8 = m ((c : Thread nD τ).loc main_arg8) :=
  W8_untouched m ρ c main_arg8 (by decide) (by decide) (by decide) (by decide) (by decide) (by decide) (by decide) (by decide)
theorem W8_main_arg9 (c : Dev nD) : W8 m ρ c main_arg9 = m ((c : Thread nD τ).loc main_arg9) :=
  W8_untouched m ρ c main_arg9 (by decide) (by decide) (by decide) (by decide) (by decide) (by decide) (by decide) (by decide)
theorem W8_main_arg10 (c : Dev nD) : W8 m ρ c main_arg10 = m ((c : Thread nD τ).loc main_arg10) :=
  W8_untouched m ρ c main_arg10 (by decide) (by decide) (by decide) (by decide) (by decide) (by decide) (by decide) (by decide)
theorem W8_main_arg11 (c : Dev nD) : W8 m ρ c main_arg11 = m ((c : Thread nD τ).loc main_arg11) :=
  W8_untouched m ρ c main_arg11 (by decide) (by decide) (by decide) (by decide) (by decide) (by decide) (by decide) (by decide)
theorem W8_main_arg12 (c : Dev nD) : W8 m ρ c main_arg12 = m ((c : Thread nD τ).loc main_arg12) :=
  W8_untouched m ρ c main_arg12 (by decide) (by decide) (by decide) (by decide) (by decide) (by decide) (by decide) (by decide)
theorem W8_main_arg13 (c : Dev nD) : W8 m ρ c main_arg13 = m ((c : Thread nD τ).loc main_arg13) :=
  W8_untouched m ρ c main_arg13 (by decide) (by decide) (by decide) (by decide) (by decide) (by decide) (by decide) (by decide)

/-! ## The results -/

/-- The atom result: the finalising launch's output array. -/
theorem W8_main_v40 (c : Dev nD) : W8 m ρ c main_v40 = (dat3 (V7 m ρ) c).arrAt 2 cfg3.N :=
  W8_arr m ρ c 2

/-- The bond result: the edge launch's first output array, which nothing later writes. -/
theorem W8_main_v36_0 (c : Dev nD) : W8 m ρ c main_v36_0 = (dat2 (V5 m ρ) c).arrAt 4 cfg2.N :=
  (W8_of_ne m ρ c main_v36_0 (by decide)).trans <| (W7_of m ρ c main_v36_0 (by decide)).trans <| W6_arr m ρ c 4

/-! ## The frame -/

/-- From any memory with zero counters every weakly fair execution of the program terminates, nothing faulting, and
    every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩)
    (run_all m ρ)

end Cert.KernelIdeal.Fr

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Arr0.lean ====
/-
  What the fused atom-side linear launch leaves in its output array, as one function of its three input arrays as
  the launch finds them: out[i, j] = Σₖ x[i, k] · w[k, j] + b[0, j] over the 100000 × 1024 array, at the ideal
  values (the roundings to bf16 on the way into the product are the identity there, and the product into a zero
  accumulator is the plain sum). Grid point t writes back rows 2000·t … 2000·t + 1999: row p of that block is
  computed from row p of the block of x, which is row 2000·t + p of x, and from the whole of w and b; the fifty
  blocks cover the array.
-/
import proofs.«122269_j22239340658714_1_alg».proof.Proof.Launch0
import proofs.«122269_j22239340658714_1_alg».proof.Proof.LibDotPlain
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt Ideal) ((c : Thread nD τ).loc b))

theorem hz2l : (![0, 0] : Fin 2 → Nat) = fun _ => 0 := funext fun a => by fin_cases a <;> rfl

/-- The output array as a function of the three input arrays, index by index: a row of x against a column of w,
    plus the bias of that column. -/
abbrev stackedG (x : FVec Ideal S100000x256 .f32) (w : FVec Ideal S256x1024 .f32) (b : FVec Ideal S1x1024 .f32) :
    FVec Ideal S100000x1024 .f32 :=
  fun i => (∑ k : Fin 256, x (ix2 (i 0) k) * w (ix2 k (i 1))) + b (ix2 0 (i 1))

/-- The three input arrays as the launch finds them, at their literal types. -/
abbrev xarr (c : Dev nD) : FVec Ideal S100000x256 .f32 := V c main_arg0
abbrev warr (c : Dev nD) : FVec Ideal S256x1024 .f32 := V c main_v4
abbrev barr (c : Dev nD) : FVec Ideal S1x1024 .f32 := V c main_v6

/-- The body's stored value at row p, column q of the block: the row of the x block against the column of w, plus
    the bias. -/
theorem pay0_apply (x0 : FVec Ideal S2000x256 .f32) (x1 : FVec Ideal S256x1024 .f32) (x2 : FVec Ideal S1x1024 .f32)
    (p : Fin 2000) (q : Fin 1024) :
    k0_pay1 (F := Ideal) x0 x1 x2 (ix2 p q) = (∑ k : Fin 256, x0 (ix2 p k) * x1 (ix2 k q)) + x2 (ix2 0 q) := by
  unfold k0_pay1
  simp only [shapeCast_self]
  rw [addf_apply]
  refine congrArg₂ (· + ·) ?_ ?_
  · exact Cert.DotPlain.matmul_zero_rows_cols dot_S2000x256_S256x1024_S2000x1024_1_0_0_1_n_n rfl rfl rfl rfl rfl rfl none _ _ p q
  · exact broadcastTo_apply x2 _ (ix2 p q) (ix2 0 q) (fun a => by match a with | ⟨0, _⟩ => rfl | ⟨1, _⟩ => rfl)

/-- The printed index maps over the grid: x and the output move down the rows together; w and b stay. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block is some point's. -/
theorem idx_onto0 : ∀ q0 : Fin 50, ∃ t : Fin cfg0.N, win0_3.index t = ![q0.val, 0] :=
  (by decide +kernel : ∀ q0 : Fin 50, ∃ t : Fin grid0.N, win0_3.index t = ![q0.val, 0])

/-- What point `t` writes back is block `t` of `stackedG` of the input arrays as the launch finds them. -/
theorem flushed0_eq (c : Dev nD) (t : Fin cfg0.N) :
    (dat0 V c).flushed 3 t = ((cfg0.win 3).blk t).view.read (Elt Ideal) (stackedG (V c main_arg0) (V c main_v4) (V c main_v6)) := by
  show (cfg0.win 3).cut (grid0.coords t) ((dat0 V c).after 3 t) = _
  rw [after0_3]
  unfold out0_3
  rw [View.canon_unit_zero hz2l]
  simp only [View.ld_unit_zero (S := S2000x256) hz2l, View.ld_unit_zero (S := S256x1024) hz2l, View.ld_unit_zero (S := S1x1024) hz2l]
  obtain ⟨e0, e1, e2, e3, e4, e5, e6⟩ := idx_facts0 t
  funext j
  obtain ⟨p, q, rfl⟩ : ∃ (p : Fin 2000) (q : Fin 1024), j = ix2 p q := ⟨j 0, j 1, eq_ix2 j⟩
  show k0_pay1 (F := Ideal) (iblk0 V c 0 t) (iblk0 V c 1 t) (iblk0 V c 2 t) (ix2 p q)
    = stackedG (V c main_arg0) (V c main_v4) (V c main_v6) (((cfg0.win 3).blk t).view.emb (ix2 p q))
  rw [pay0_apply (iblk0 V c 0 t) (iblk0 V c 1 t) (iblk0 V c 2 t) p q]
  have h0 : ∀ k : Fin 256, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  have h1 : ∀ k : Fin 256, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 1024 + 1 * q.val = win0_3.index t (1 : Fin 2) * 1024 + 1 * q.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  show (∑ k : Fin 256, xarr V c (((cfg0.win 0).blk t).view.emb (ix2 p k)) * warr V c (((cfg0.win 1).blk t).view.emb (ix2 k q)))
      + barr V c (((cfg0.win 2).blk t).view.emb (ix2 (0 : Fin 1) q))
    = (∑ k : Fin 256, xarr V c (ix2 ((((cfg0.win 3).blk t).view.emb (ix2 p q)) 0) k) * warr V c (ix2 k ((((cfg0.win 3).blk t).view.emb (ix2 p q)) 1)))
      + barr V c (ix2 (0 : Fin 1) ((((cfg0.win 3).blk t).view.emb (ix2 p q)) 1))
  rw [h2]
  refine congrArg₂ (· + ·) (Finset.sum_congr rfl fun k _ => ?_) rfl
  rw [h0 k, h1 k]
  rfl

/-- An index of the array is in point `t`'s block iff each coordinate is in the block's range on its axis. -/
theorem mem_blk0 (t : Fin cfg0.N) (i : S100000x1024.Idx) :
    i ∈ ((cfg0.win 3).blk t).view.set ↔ ∀ a : Fin 2, win0_3.index t a * S2000x1024.size a ≤ (i a).val ∧ (i a).val < win0_3.index t a * S2000x1024.size a + S2000x1024.size a := by
  show i ∈ ((View.whole main_v7).slice (win0_3.rect t)).set ↔ _
  rw [View.set_slice_whole, Rect.mem_set_unit]
  exact Iff.rfl

/-- Every index lies in the block of the point its row block names. -/
theorem cover0 (i : S100000x1024.Idx) : ∃ t : Fin cfg0.N, (cfg0.win 3).flush t = true ∧ i ∈ ((cfg0.win 3).blk t).view.set := by
  have hi0 : (i 0).val < 100000 := (i 0).isLt
  have hi1 : (i 1).val < 1024 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 1024 ≤ (i 1).val ∧ (i 1).val < win0_3.index t (1 : Fin 2) * 1024 + 1024; omega

/-- The output array after the launch. -/
theorem arr0 (c : Dev nD) : (dat0 V c).arrAt 3 cfg0.N = stackedG (V c main_arg0) (V c main_v4) (V c main_v6) :=
  (dat0 V c).arrAt_eq_of_cover 3 (stackedG (V c main_arg0) (V c main_v4) (V c main_v6)) (fun t _ => flushed0_eq V c t) (cover0)

end Cert.KernelIdeal.Val

end
-- ==== Proof.Arr1.lean ====
/-
  What the bond-side linear launch leaves in its output array, as one function of its three input arrays as
  the launch finds them: out[i, j] = Σₖ x[i, k] · w[k, j] + b[0, j] over the 400000 × 256 array, at the ideal
  values (the roundings to bf16 on the way into the product are the identity there, and the product into a zero
  accumulator is the plain sum). Grid point t writes back rows 4000·t … 4000·t + 1999: row p of that block is
  computed from row p of the block of x, which is row 4000·t + p of x, and from the whole of w and b; the hundred
  blocks cover the array.
-/
import proofs.«122269_j22239340658714_1_alg».proof.Proof.Launch1
import proofs.«122269_j22239340658714_1_alg».proof.Proof.LibDotPlain
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt Ideal) ((c : Thread nD τ).loc b))

theorem hz2m : (![0, 0] : Fin 2 → Nat) = fun _ => 0 := funext fun a => by fin_cases a <;> rfl

/-- The output array as a function of the three input arrays, index by index: a row of x against a column of w,
    plus the bias of that column. -/
abbrev aeG (x : FVec Ideal S400000x256 .f32) (w : FVec Ideal S256x256 .f32) (b : FVec Ideal S1x256 .f32) :
    FVec Ideal S400000x256 .f32 :=
  fun i => (∑ k : Fin 256, x (ix2 (i 0) k) * w (ix2 k (i 1))) + b (ix2 0 (i 1))

/-- The three input arrays as the launch finds them, at their literal types. -/
abbrev xarr1 (c : Dev nD) : FVec Ideal S400000x256 .f32 := V c main_arg1
abbrev warr1 (c : Dev nD) : FVec Ideal S256x256 .f32 := V c main_v12
abbrev barr1 (c : Dev nD) : FVec Ideal S1x256 .f32 := V c main_v13

/-- The body's stored value at row p, column q of the block: the row of the x block against the column of w, plus
    the bias. -/
theorem pay1_apply (x0 : FVec Ideal S4000x256 .f32) (x1 : FVec Ideal S256x256 .f32) (x2 : FVec Ideal S1x256 .f32)
    (p : Fin 4000) (q : Fin 256) :
    k1_pay1 (F := Ideal) x0 x1 x2 (ix2 p q) = (∑ k : Fin 256, x0 (ix2 p k) * x1 (ix2 k q)) + x2 (ix2 0 q) := by
  unfold k1_pay1
  simp only [shapeCast_self]
  rw [addf_apply]
  refine congrArg₂ (· + ·) ?_ ?_
  · exact Cert.DotPlain.matmul_zero_rows_cols dot_S4000x256_S256x256_S4000x256_1_0_0_1_n_n rfl rfl rfl rfl rfl rfl none _ _ p q
  · exact broadcastTo_apply x2 _ (ix2 p q) (ix2 0 q) (fun a => by match a with | ⟨0, _⟩ => rfl | ⟨1, _⟩ => rfl)

/-- The printed index maps over the grid: x and the output move down the rows together; w and b stay. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every row block is some point's. -/
theorem idx_onto1 : ∀ q0 : Fin 100, ∃ t : Fin cfg1.N, win1_3.index t = ![q0.val, 0] :=
  (by decide +kernel : ∀ q0 : Fin 100, ∃ t : Fin grid1.N, win1_3.index t = ![q0.val, 0])

/-- What point `t` writes back is block `t` of `aeG` of the input arrays as the launch finds them. -/
theorem flushed1_eq (c : Dev nD) (t : Fin cfg1.N) :
    (dat1 V c).flushed 3 t = ((cfg1.win 3).blk t).view.read (Elt Ideal) (aeG (V c main_arg1) (V c main_v12) (V c main_v13)) := by
  show (cfg1.win 3).cut (grid1.coords t) ((dat1 V c).after 3 t) = _
  rw [after1_3]
  unfold out1_3
  rw [View.canon_unit_zero hz2m]
  simp only [View.ld_unit_zero (S := S4000x256) hz2m, View.ld_unit_zero (S := S256x256) hz2m, View.ld_unit_zero (S := S1x256) hz2m]
  obtain ⟨e0, e1, e2, e3, e4, e5, e6⟩ := idx_facts1 t
  funext j
  obtain ⟨p, q, rfl⟩ : ∃ (p : Fin 4000) (q : Fin 256), j = ix2 p q := ⟨j 0, j 1, eq_ix2 j⟩
  show k1_pay1 (F := Ideal) (iblk1 V c 0 t) (iblk1 V c 1 t) (iblk1 V c 2 t) (ix2 p q)
    = aeG (V c main_arg1) (V c main_v12) (V c main_v13) (((cfg1.win 3).blk t).view.emb (ix2 p q))
  rw [pay1_apply (iblk1 V c 0 t) (iblk1 V c 1 t) (iblk1 V c 2 t) p q]
  have h0 : ∀ k : Fin 256, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 256 + 1 * k.val = k.val; omega
  have h1 : ∀ k : Fin 256, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 256 + 1 * k.val = k.val; omega
    | ⟨1, _⟩ => show win1_1.index t (1 : Fin 2) * 256 + 1 * q.val = win1_3.index t (1 : Fin 2) * 256 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  show (∑ k : Fin 256, xarr1 V c (((cfg1.win 0).blk t).view.emb (ix2 p k)) * warr1 V c (((cfg1.win 1).blk t).view.emb (ix2 k q)))
      + barr1 V c (((cfg1.win 2).blk t).view.emb (ix2 (0 : Fin 1) q))
    = (∑ k : Fin 256, xarr1 V c (ix2 ((((cfg1.win 3).blk t).view.emb (ix2 p q)) 0) k) * warr1 V c (ix2 k ((((cfg1.win 3).blk t).view.emb (ix2 p q)) 1)))
      + barr1 V c (ix2 (0 : Fin 1) ((((cfg1.win 3).blk t).view.emb (ix2 p q)) 1))
  rw [h2]
  refine congrArg₂ (· + ·) (Finset.sum_congr rfl fun k _ => ?_) rfl
  rw [h0 k, h1 k]
  rfl

/-- An index of the array is in point `t`'s block iff each coordinate is in the block's range on its axis. -/
theorem mem_blk1 (t : Fin cfg1.N) (i : S400000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v14).slice (win1_3.rect t)).set ↔ _
  rw [View.set_slice_whole, Rect.mem_set_unit]
  exact Iff.rfl

/-- Every index lies in the block of the point its row block names. -/
theorem cover1 (i : S400000x256.Idx) : ∃ t : Fin cfg1.N, (cfg1.win 3).flush t = true ∧ i ∈ ((cfg1.win 3).blk t).view.set := by
  have hi0 : (i 0).val < 400000 := (i 0).isLt
  have hi1 : (i 1).val < 256 := (i 1).isLt
  obtain ⟨t, ht⟩ := idx_onto1 ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 256 ≤ (i 1).val ∧ (i 1).val < win1_3.index t (1 : Fin 2) * 256 + 256; omega

/-- The output array after the launch. -/
theorem arr1 (c : Dev nD) : (dat1 V c).arrAt 3 cfg1.N = aeG (V c main_arg1) (V c main_v12) (V c main_v13) :=
  (dat1 V c).arrAt_eq_of_cover 3 (aeG (V c main_arg1) (V c main_v12) (V c main_v13)) (fun t _ => flushed1_eq V c t) (cover1)

end Cert.KernelIdeal.Val

end
-- ==== Proof.Arr2.lean ====
/-
  What the edge launch leaves in its two output arrays, as functions of its four input arrays as the launch finds
  them, index by index over the 400000 × 256 arrays: with g[i] = (a[i] + b[i]) + c[i], the first output is
  max(g[i], 0) and the second logistic(g[i]) · v[i]. Grid point t writes back rows 2000·t … 2000·t + 1999 of each,
  every entry computed from the same entry of the input blocks, which are the same rows of the input arrays; the two
  hundred blocks cover each array.
-/
import proofs.«122269_j22239340658714_1_alg».proof.Proof.Launch2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz2e : (![0, 0] : Fin 2 → Nat) = fun _ => 0 := funext fun a => by fin_cases a <;> rfl

/-- The first output array (the activated edge input) as a function of three input arrays, index by index. -/
abbrev bondG (a b c : S400000x256.Idx → Elt F .f32) : S400000x256.Idx → Elt F .f32 :=
  fun i => FloatOps.maximumf (FloatOps.addf (FloatOps.addf (a i) (b i)) (c i)) (Scalar.ofBits .f32 0x00000000#32)

/-- The second output array (the gated message) as a function of the four input arrays, index by index. -/
abbrev msgG (a b c v : S400000x256.Idx → Elt F .f32) : S400000x256.Idx → Elt F .f32 :=
  fun i => FloatOps.mulf (FloatOps.logistic (FloatOps.addf (FloatOps.addf (a i) (b i)) (c i))) (v i)

/-- The body's stored values are these trees of pointwise operations of its loaded blocks. -/
theorem pay2_4_eq (x0 x1 x2 : Vec F S2000x256 .f32) :
    k2_pay2 x0 x1 x2 = maximumf (addf (addf x0 x1) x2) (broadcast S2000x256 (Scalar.ofBits .f32 0x00000000#32)) := by
  unfold k2_pay2 k2_pay1; simp only [shapeCast_self]
theorem pay2_5_eq (x0 x1 x2 x3 : Vec F S2000x256 .f32) :
    k2_pay3 x0 x1 x2 x3 = mulf (logistic (addf (addf x0 x1) x2)) x3 := by
  unfold k2_pay3 k2_pay1; simp only [shapeCast_self]

/-- The six windows move together: block index (t, 0) at point t. -/
theorem idx_facts2 : ∀ t : Fin cfg2.N, win2_0.index t (0 : Fin 2) = win2_4.index t (0 : Fin 2)
    ∧ win2_0.index t (1 : Fin 2) = win2_4.index t (1 : Fin 2)
    ∧ win2_1.index t (0 : Fin 2) = win2_4.index t (0 : Fin 2)
    ∧ win2_1.index t (1 : Fin 2) = win2_4.index t (1 : Fin 2)
    ∧ win2_2.index t (0 : Fin 2) = win2_4.index t (0 : Fin 2)
    ∧ win2_2.index t (1 : Fin 2) = win2_4.index t (1 : Fin 2)
    ∧ win2_3.index t (0 : Fin 2) = win2_4.index t (0 : Fin 2)
    ∧ win2_3.index t (1 : Fin 2) = win2_4.index t (1 : Fin 2)
    ∧ win2_5.index t (0 : Fin 2) = win2_4.index t (0 : Fin 2)
    ∧ win2_5.index t (1 : Fin 2) = win2_4.index t (1 : Fin 2) :=
  (by decide +kernel : ∀ t : Fin grid2.N, _)

/-- Every row block is some point's, for either output. -/
theorem idx_onto2a : ∀ q0 : Fin 200, ∃ t : Fin cfg2.N, win2_4.index t = ![q0.val, 0] :=
  (by decide +kernel : ∀ q0 : Fin 200, ∃ t : Fin grid2.N, win2_4.index t = ![q0.val, 0])
theorem idx_onto2b : ∀ q0 : Fin 200, ∃ t : Fin cfg2.N, win2_5.index t = ![q0.val, 0] :=
  (by decide +kernel : ∀ q0 : Fin 200, ∃ t : Fin grid2.N, win2_5.index t = ![q0.val, 0])

/-- What point `t` writes back to the first output is block `t` of `bondG` of the input arrays. -/
theorem flushed2_4_eq (c : Dev nD) (t : Fin cfg2.N) :
    (dat2 V c).flushed 4 t = ((cfg2.win 4).blk t).view.read (Elt F) (bondG (V c main_v14) (V c main_v21) (V c main_v28)) := by
  show (cfg2.win 4).cut (grid2.coords t) ((dat2 V c).after 4 t) = _
  rw [after2_4]
  unfold out2_4
  rw [View.canon_unit_zero hz2e]
  simp only [View.ld_unit_zero (S := S2000x256) hz2e]
  rw [pay2_4_eq]
  obtain ⟨e0, e1, e2, e3, e4, e5, e6, e7, e8, e9⟩ := idx_facts2 t
  funext j
  show FloatOps.maximumf (FloatOps.addf (FloatOps.addf (V c main_v14 (((cfg2.win 0).blk t).view.emb j)) (V c main_v21 (((cfg2.win 1).blk t).view.emb j))) (V c main_v28 (((cfg2.win 2).blk t).view.emb j))) (Scalar.ofBits .f32 0x00000000#32)
    = FloatOps.maximumf (FloatOps.addf (FloatOps.addf (V c main_v14 (((cfg2.win 4).blk t).view.emb j)) (V c main_v21 (((cfg2.win 4).blk t).view.emb j))) (V c main_v28 (((cfg2.win 4).blk t).view.emb j))) (Scalar.ofBits .f32 0x00000000#32)
  have h0 : ((cfg2.win 0).blk t).view.emb j = ((cfg2.win 4).blk t).view.emb j := by
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 256 + 1 * (j 1).val = win2_4.index t (1 : Fin 2) * 256 + 1 * (j 1).val; omega
  have h1 : ((cfg2.win 1).blk t).view.emb j = ((cfg2.win 4).blk t).view.emb j := by
    funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 256 + 1 * (j 1).val = win2_4.index t (1 : Fin 2) * 256 + 1 * (j 1).val; omega
  have h2 : ((cfg2.win 2).blk t).view.emb j = ((cfg2.win 4).blk t).view.emb j := by
    funext a; apply Fin.ext
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 256 + 1 * (j 1).val = win2_4.index t (1 : Fin 2) * 256 + 1 * (j 1).val; omega
  rw [h0, h1, h2]

/-- What point `t` writes back to the second output is block `t` of `msgG` of the input arrays. -/
theorem flushed2_5_eq (c : Dev nD) (t : Fin cfg2.N) :
    (dat2 V c).flushed 5 t = ((cfg2.win 5).blk t).view.read (Elt F) (msgG (V c main_v14) (V c main_v21) (V c main_v28) (V c main_v35)) := by
  show (cfg2.win 5).cut (grid2.coords t) ((dat2 V c).after 5 t) = _
  rw [after2_5]
  unfold out2_5
  rw [View.canon_unit_zero hz2e]
  simp only [View.ld_unit_zero (S := S2000x256) hz2e]
  rw [pay2_5_eq]
  obtain ⟨e0, e1, e2, e3, e4, e5, e6, e7, e8, e9⟩ := idx_facts2 t
  funext j
  show FloatOps.mulf (FloatOps.logistic (FloatOps.addf (FloatOps.addf (V c main_v14 (((cfg2.win 0).blk t).view.emb j)) (V c main_v21 (((cfg2.win 1).blk t).view.emb j))) (V c main_v28 (((cfg2.win 2).blk t).view.emb j)))) (V c main_v35 (((cfg2.win 3).blk t).view.emb j))
    = FloatOps.mulf (FloatOps.logistic (FloatOps.addf (FloatOps.addf (V c main_v14 (((cfg2.win 5).blk t).view.emb j)) (V c main_v21 (((cfg2.win 5).blk t).view.emb j))) (V c main_v28 (((cfg2.win 5).blk t).view.emb j)))) (V c main_v35 (((cfg2.win 5).blk t).view.emb j))
  have h0 : ((cfg2.win 0).blk t).view.emb j = ((cfg2.win 5).blk t).view.emb j := by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * (j 1).val = win2_5.index t (1 : Fin 2) * 256 + 1 * (j 1).val; omega
  have h1 : ((cfg2.win 1).blk t).view.emb j = ((cfg2.win 5).blk t).view.emb j := by
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 256 + 1 * (j 1).val = win2_5.index t (1 : Fin 2) * 256 + 1 * (j 1).val; omega
  have h2 : ((cfg2.win 2).blk t).view.emb j = ((cfg2.win 5).blk t).view.emb j := by
    funext a; apply Fin.ext
    match a with
    | ⟨0, _⟩ => show win2_2.index t (0 : Fin 2) * 2000 + 1 * (j 0).val = win2_5.index t (0 : Fin 2) * 2000 + 1 * (j 0).val; omega
    | ⟨1, _⟩ => show win2_2.index t (1 : Fin 2) * 256 + 1 * (j 1).val = win2_5.index t (1 : Fin 2) * 256 + 1 * (j 1).val; omega
  have h3 : ((cfg2.win 3).blk t).view.emb j = ((cfg2.win 5).blk t).view.emb j := by
    funext a; apply Fin.ext
    match a with
    | ⟨0, _⟩ => show win2_3.index t (0 : Fin 2) * 2000 + 1 * (j 0).val = win2_5.index t (0 : Fin 2) * 2000 + 1 * (j 0).val; omega
    | ⟨1, _⟩ => show win2_3.index t (1 : Fin 2) * 256 + 1 * (j 1).val = win2_5.index t (1 : Fin 2) * 256 + 1 * (j 1).val; omega
  rw [h0, h1, h2, h3]

/-- An index of the array is in point `t`'s block iff each coordinate is in the block's range on its axis. -/
theorem mem_blk2a (t : Fin cfg2.N) (i : S400000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v36_0).slice (win2_4.rect t)).set ↔ _
  rw [View.set_slice_whole, Rect.mem_set_unit]
  exact Iff.rfl

/-- Every index lies in the block of the point its row block names. -/
theorem cover2a (i : S400000x256.Idx) : ∃ t : Fin cfg2.N, (cfg2.win 4).flush t = true ∧ i ∈ ((cfg2.win 4).blk t).view.set := by
  have hi0 : (i 0).val < 400000 := (i 0).isLt
  have hi1 : (i 1).val < 256 := (i 1).isLt
  obtain ⟨t, ht⟩ := idx_onto2a ⟨(i 0).val / 2000, by omega⟩
  have q0 : win2_4.index t (0 : Fin 2) = (i 0).val / 2000 := congrFun ht 0
  have q1 : win2_4.index t (1 : Fin 2) = 0 := congrFun ht 1
  refine ⟨t, flush2_4 t, ?_⟩
  rw [mem_blk2a]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 256 ≤ (i 1).val ∧ (i 1).val < win2_4.index t (1 : Fin 2) * 256 + 256; omega

/-- An index of the array is in point `t`'s block iff each coordinate is in the block's range on its axis. -/
theorem mem_blk2b (t : Fin cfg2.N) (i : S400000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v36_1).slice (win2_5.rect t)).set ↔ _
  rw [View.set_slice_whole, Rect.mem_set_unit]
  exact Iff.rfl

/-- Every index lies in the block of the point its row block names. -/
theorem cover2b (i : S400000x256.Idx) : ∃ t : Fin cfg2.N, (cfg2.win 5).flush t = true ∧ i ∈ ((cfg2.win 5).blk t).view.set := by
  have hi0 : (i 0).val < 400000 := (i 0).isLt
  have hi1 : (i 1).val < 256 := (i 1).isLt
  obtain ⟨t, ht⟩ := idx_onto2b ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2b]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The two output arrays after the launch. -/
theorem arr2_4 (c : Dev nD) : (dat2 V c).arrAt 4 cfg2.N = bondG (V c main_v14) (V c main_v21) (V c main_v28) :=
  (dat2 V c).arrAt_eq_of_cover 4 (bondG (V c main_v14) (V c main_v21) (V c main_v28)) (fun t _ => flushed2_4_eq V c t) (cover2a)
theorem arr2_5 (c : Dev nD) : (dat2 V c).arrAt 5 cfg2.N = msgG (V c main_v14) (V c main_v21) (V c main_v28) (V c main_v35) :=
  (dat2 V c).arrAt_eq_of_cover 5 (msgG (V c main_v14) (V c main_v21) (V c main_v28) (V c main_v35)) (fun t _ => flushed2_5_eq V c t) (cover2b)

end Cert.KernelIdeal.Val

end
-- ==== Proof.Arr3.lean ====
/-
  What the finalising launch leaves in its output array, as one function of its two input arrays as the launch
  finds them: out[i] = max(a[i] + b[i], 0) at every index i of the 100000 × 256 array. Grid point t writes back rows
  2000·t … 2000·t + 1999, each entry computed from the same entry of the two input blocks, which are the same
  rows of the input arrays; the fifty blocks cover the array.
-/
import proofs.«122269_j22239340658714_1_alg».proof.Proof.Launch3
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl

/-- The output array as a function of the two input arrays, index by index. -/
abbrev atomG (a b : S100000x256.Idx → Elt F .f32) : S100000x256.Idx → Elt F .f32 :=
  fun i => FloatOps.maximumf (FloatOps.addf (a i) (b i)) (Scalar.ofBits .f32 0x00000000#32)

/-- The body's stored value is that tree of pointwise operations of its two loaded blocks (a cast to the same shape
    is the identity). -/
theorem pay3_eq (x0 x1 : Vec F S2000x256 .f32) :
    k3_pay1 x0 x1 = maximumf (addf x0 x1) (broadcast S2000x256 (Scalar.ofBits .f32 0x00000000#32)) := by
  unfold k3_pay1; simp only [shapeCast_self]

/-- The three windows move together: block index (t, 0) at point t. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 49 ∧ win3_2.index t (1 : Fin 2) = 0 :=
  (by decide +kernel : ∀ t : Fin grid3.N, _)

/-- Every row block is some point's. -/
theorem idx_onto3 : ∀ q0 : Fin 50, ∃ t : Fin cfg3.N, win3_2.index t = ![q0.val, 0] :=
  (by decide +kernel : ∀ q0 : Fin 50, ∃ t : Fin grid3.N, win3_2.index t = ![q0.val, 0])

/-- What point `t` writes back is block `t` of `atomG` of the input arrays as the launch finds them. -/
theorem flushed3_eq (c : Dev nD) (t : Fin cfg3.N) :
    (dat3 V c).flushed 2 t = ((cfg3.win 2).blk t).view.read (Elt F) (atomG (V c main_v11) (V c main_v39)) := by
  show (cfg3.win 2).cut (grid3.coords t) ((dat3 V c).after 2 t) = _
  rw [after3_2]
  unfold out3_2
  rw [View.canon_unit_zero hz2]
  simp only [View.ld_unit_zero (S := S2000x256) hz2]
  rw [pay3_eq]
  obtain ⟨e0, e1, e2, e3, e4, e5⟩ := idx_facts3 t
  funext j
  show FloatOps.maximumf (FloatOps.addf (V c main_v11 (((cfg3.win 0).blk t).view.emb j)) (V c main_v39 (((cfg3.win 1).blk t).view.emb j))) (Scalar.ofBits .f32 0x00000000#32)
    = FloatOps.maximumf (FloatOps.addf (V c main_v11 (((cfg3.win 2).blk t).view.emb j)) (V c main_v39 (((cfg3.win 2).blk t).view.emb j))) (Scalar.ofBits .f32 0x00000000#32)
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 256 + 1 * (j 1).val = win3_2.index t (1 : Fin 2) * 256 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 256 + 1 * (j 1).val = win3_2.index t (1 : Fin 2) * 256 + 1 * (j 1).val; omega
  rw [h0, h1]

/-- An index of the array is in point `t`'s block iff each coordinate is in the block's range on its axis. -/
theorem mem_blk3 (t : Fin cfg3.N) (i : S100000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v40).slice (win3_2.rect t)).set ↔ _
  rw [View.set_slice_whole, Rect.mem_set_unit]
  exact Iff.rfl

/-- Every index lies in the block of the point its row block names. -/
theorem cover3 (i : S100000x256.Idx) : ∃ t : Fin cfg3.N, (cfg3.win 2).flush t = true ∧ i ∈ ((cfg3.win 2).blk t).view.set := by
  have hi0 : (i 0).val < 100000 := (i 0).isLt
  have hi1 : (i 1).val < 256 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The output array after the launch. -/
theorem arr3 (c : Dev nD) : (dat3 V c).arrAt 2 cfg3.N = atomG (V c main_v11) (V c main_v39) :=
  (dat3 V c).arrAt_eq_of_cover 2 (atomG (V c main_v11) (V c main_v39)) (fun t _ => flushed3_eq V c t) (cover3)

end Cert.KernelIdeal.Val

end
-- ==== Proof.Pieces.lean ====
/-
  The host-side pieces of the kernel program as functions of arrays, at the ideal values: a transposed weight,
  four transposed weights side by side, four biases end to end as one row, an edge index array wrapped and laid as
  a column, a row gather of an atom-side table, the scatter-add of the messages from zero.
-/
import proofs.«122269_j22239340658714_1_alg».proof.KernelIdeal
import Idealize.ShloMosaic.PureOps.Ideal

noncomputable section

namespace Cert.KernelIdeal.Val

open Cert.KernelIdeal Idealize.ShloMosaic

variable [Cert.KernelIdeal.Facts]
open Facts₀ Facts

/-- A weight matrix transposed. -/
abbrev tr (w : (⟨S256x256, .f32⟩ : BufTy).Contents (Elt Ideal)) : (⟨S256x256, .f32⟩ : BufTy).Contents (Elt Ideal) :=
  transpose S256x256 [1, 0] w transposes_S256x256_S256x256_1_0
/-- Four transposed weights side by side. -/
abbrev wcatOf (w0 w1 w2 w3 : (⟨S256x256, .f32⟩ : BufTy).Contents (Elt Ideal)) : (⟨S256x1024, .f32⟩ : BufTy).Contents (Elt Ideal) :=
  concatenate S256x1024 1 [⟨S256x256, tr w0⟩, ⟨S256x256, tr w1⟩, ⟨S256x256, tr w2⟩, ⟨S256x256, tr w3⟩] concatenates_S256x256_S256x256_S256x256_S256x256_S256x1024_d1
/-- Four biases end to end, as one row. -/
abbrev bcatOf (b0 b1 b2 b3 : (⟨S256, .f32⟩ : BufTy).Contents (Elt Ideal)) : (⟨S1x1024, .f32⟩ : BufTy).Contents (Elt Ideal) :=
  shapeCast S1x1024 (concatenate S1024 0 [⟨S256, b0⟩, ⟨S256, b1⟩, ⟨S256, b2⟩, ⟨S256, b3⟩] concatenates_S256_S256_S256_S256_S1024_d0) shapeCasts_S1024_S1x1024
/-- A bias as one row. -/
abbrev rowOf (b : (⟨S256, .f32⟩ : BufTy).Contents (Elt Ideal)) : (⟨S1x256, .f32⟩ : BufTy).Contents (Elt Ideal) := shapeCast S1x256 b shapeCasts_S256_S1x256
/-- An edge index array as the gathers take it: a negative index moved up by the table's length, as a column. -/
abbrev idxOf (a : (⟨S400000, .i32⟩ : BufTy).Contents (Elt Ideal)) : (⟨S400000x1, .i32⟩ : BufTy).Contents (Elt Ideal) :=
  broadcastInDim S400000x1 ![0] bcast_S400000_S400000x1_0
    (select (cmpi .slt a (broadcastInDim S400000 ![] bcast_S_S400000 (constantI S_ 32 0#32)))
      (addi a (broadcastInDim S400000 ![] bcast_S_S400000 (constantI S_ 32 100000#32))) a)
/-- A row gather of an atom-side table at such indices. -/
abbrev gth (x : (⟨S100000x256, .f32⟩ : BufTy).Contents (Elt Ideal)) (i : (⟨S400000x1, .i32⟩ : BufTy).Contents (Elt Ideal)) : (⟨S400000x256, .f32⟩ : BufTy).Contents (Elt Ideal) :=
  Host.gather gather_S100000x256_S400000x1_S400000x256_1_0_n_n_0_1_1256 x i
/-- The scatter-add of the messages into their source atoms, from zero. -/
abbrev agg (src : (⟨S400000, .i32⟩ : BufTy).Contents (Elt Ideal)) (u : (⟨S400000x256, .f32⟩ : BufTy).Contents (Elt Ideal)) : (⟨S100000x256, .f32⟩ : BufTy).Contents (Elt Ideal) :=
  Host.scatterAdd (F := Ideal) scatter_S100000x256_S400000x1_S400000x256_1_0_0_1
    (broadcastInDim S100000x256 ![] bcast_S_S100000x256 (constant (F := Ideal) S_ .f32 0x00000000#32))
    (broadcastInDim S400000x1 ![0] bcast_S400000_S400000x1_0 src) u
/-- The four column blocks of a stacked 100000 × 1024 array. -/
abbrev col0 (s : (⟨S100000x1024, .f32⟩ : BufTy).Contents (Elt Ideal)) : (⟨S100000x256, .f32⟩ : BufTy).Contents (Elt Ideal) := extractStridedSlice S100000x256 ![0, 0] s slices_S100000x1024_S100000x256_0_0
abbrev col1 (s : (⟨S100000x1024, .f32⟩ : BufTy).Contents (Elt Ideal)) : (⟨S100000x256, .f32⟩ : BufTy).Contents (Elt Ideal) := extractStridedSlice S100000x256 ![0, 256] s slices_S100000x1024_S100000x256_0_256
abbrev col2 (s : (⟨S100000x1024, .f32⟩ : BufTy).Contents (Elt Ideal)) : (⟨S100000x256, .f32⟩ : BufTy).Contents (Elt Ideal) := extractStridedSlice S100000x256 ![0, 512] s slices_S100000x1024_S100000x256_0_512
abbrev col3 (s : (⟨S100000x1024, .f32⟩ : BufTy).Contents (Elt Ideal)) : (⟨S100000x256, .f32⟩ : BufTy).Contents (Elt Ideal) := extractStridedSlice S100000x256 ![0, 768] s slices_S100000x1024_S100000x256_0_768

end Cert.KernelIdeal.Val

end
-- ==== Proof.Fold.lean ====
/-
  The kernel program's two results as terms of the argument arrays, at the ideal values. The fold through the
  program (the module of the run) is read one segment at a time: what each stretch of host operations computes
  from the buffers it finds — the transposed weights laid side by side and the biases end to end, the four column
  blocks cut out of the stacked linear image, the three row gathers at the wrapped edge indices, the scatter-add
  of the messages — and what each launch leaves in its output arrays (the launches' array modules).
-/
import proofs.«122269_j22239340658714_1_alg».proof.Proof.Kept
import proofs.«122269_j22239340658714_1_alg».proof.Proof.Arr0
import proofs.«122269_j22239340658714_1_alg».proof.Proof.Arr1
import proofs.«122269_j22239340658714_1_alg».proof.Proof.Arr2
import proofs.«122269_j22239340658714_1_alg».proof.Proof.Arr3
import proofs.«122269_j22239340658714_1_alg».proof.Proof.Pieces
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## The pieces, named -/

/-- The four transposed atom-side weights side by side (B, C, V, U), -/
abbrev kWcat (c : Dev nD) : (⟨S256x1024, .f32⟩ : BufTy).Contents (Elt Ideal) := wcatOf (m ((c : Thread nD τ).loc main_arg10)) (m ((c : Thread nD τ).loc main_arg12)) (m ((c : Thread nD τ).loc main_arg6)) (m ((c : Thread nD τ).loc main_arg4))
/-- and their biases end to end, as one row. -/
abbrev kBcat (c : Dev nD) : (⟨S1x1024, .f32⟩ : BufTy).Contents (Elt Ideal) := bcatOf (m ((c : Thread nD τ).loc main_arg11)) (m ((c : Thread nD τ).loc main_arg13)) (m ((c : Thread nD τ).loc main_arg7)) (m ((c : Thread nD τ).loc main_arg5))
/-- The stacked linear image of the atom features, -/
abbrev kStk (c : Dev nD) : (⟨S100000x1024, .f32⟩ : BufTy).Contents (Elt Ideal) := stackedG (m ((c : Thread nD τ).loc main_arg0)) (kWcat m c) (kBcat m c)
/-- its four column blocks, -/
abbrev kBx (c : Dev nD) : (⟨S100000x256, .f32⟩ : BufTy).Contents (Elt Ideal) := col0 (kStk m c)
abbrev kCx (c : Dev nD) : (⟨S100000x256, .f32⟩ : BufTy).Contents (Elt Ideal) := col1 (kStk m c)
abbrev kVx (c : Dev nD) : (⟨S100000x256, .f32⟩ : BufTy).Contents (Elt Ideal) := col2 (kStk m c)
abbrev kUx (c : Dev nD) : (⟨S100000x256, .f32⟩ : BufTy).Contents (Elt Ideal) := col3 (kStk m c)
/-- and the bond-side linear image. -/
abbrev kAe (c : Dev nD) : (⟨S400000x256, .f32⟩ : BufTy).Contents (Elt Ideal) := aeG (m ((c : Thread nD τ).loc main_arg1)) (tr (m ((c : Thread nD τ).loc main_arg8))) (rowOf (m ((c : Thread nD τ).loc main_arg9)))

/-! ## Before and after the first launch -/

theorem W1_v4 (c : Dev nD) : W1 m ρ c main_v4 = kWcat m c := by
  show StableHlo.after hostOps0 (W0 m ρ c) (Proc.devRef .tc main_v4) = _
  after_results
  rfl
theorem W1_v6 (c : Dev nD) : W1 m ρ c main_v6 = kBcat m c := by
  show StableHlo.after hostOps0 (W0 m ρ c) (Proc.devRef .tc main_v6) = _
  after_results
  rfl
theorem W1_arg0 (c : Dev nD) : W1 m ρ c main_arg0 = m ((c : Thread nD τ).loc main_arg0) := (W1_of m ρ c main_arg0 (by decide)).trans rfl

theorem W2_v7 (c : Dev nD) : W2 m ρ c main_v7 = kStk m c := by
  refine (W2_arr m ρ c 3).trans ((arr0 (V1 m ρ) c).trans ?_)
  show stackedG (W1 m ρ c main_arg0) (W1 m ρ c main_v4) (W1 m ρ c main_v6) = _
  rw [W1_arg0, W1_v4, W1_v6]

/-- A buffer the first launch and the operations before it leave alone. -/
theorem W2_back (c : Dev nD) (r : Ref sig .tc) (h2 : ∀ w, Pipeline.arrRef spec0 w ≠ r) (h1 : r ∉ hostOps0_W) :
    W2 m ρ c r = m ((c : Thread nD τ).loc r) :=
  (W2_of_ne m ρ c r h2).trans ((W1_of m ρ c r h1).trans rfl)

/-! ## Before and after the second launch -/

theorem W3_v8 (c : Dev nD) : W3 m ρ c main_v8 = kBx m c := by
  show StableHlo.after hostOps1 (W2 m ρ c) (Proc.devRef .tc main_v8) = _
  after_results
  rw [show W2 m ρ c (Proc.devRef .tc main_v7) = kStk m c from W2_v7 m ρ c]
theorem W3_v9 (c : Dev nD) : W3 m ρ c main_v9 = kCx m c := by
  show StableHlo.after hostOps1 (W2 m ρ c) (Proc.devRef .tc main_v9) = _
  after_results
  rw [show W2 m ρ c (Proc.devRef .tc main_v7) = kStk m c from W2_v7 m ρ c]
theorem W3_v10 (c : Dev nD) : W3 m ρ c main_v10 = kVx m c := by
  show StableHlo.after hostOps1 (W2 m ρ c) (Proc.devRef .tc main_v10) = _
  after_results
  rw [show W2 m ρ c (Proc.devRef .tc main_v7) = kStk m c from W2_v7 m ρ c]
theorem W3_v11 (c : Dev nD) : W3 m ρ c main_v11 = kUx m c := by
  show StableHlo.after hostOps1 (W2 m ρ c) (Proc.devRef .tc main_v11) = _
  after_results
  rw [show W2 m ρ c (Proc.devRef .tc main_v7) = kStk m c from W2_v7 m ρ c]
theorem W3_v12 (c : Dev nD) : W3 m ρ c main_v12 = tr (m ((c : Thread nD τ).loc main_arg8)) := by
  show StableHlo.after hostOps1 (W2 m ρ c) (Proc.devRef .tc main_v12) = _
  after_results
  rw [show W2 m ρ c (Proc.devRef .tc main_arg8) = m ((c : Thread nD τ).loc main_arg8) from W2_back m ρ c main_arg8 (by decide) (by decide)]
theorem W3_v13 (c : Dev nD) : W3 m ρ c main_v13 = rowOf (m ((c : Thread nD τ).loc main_arg9)) := by
  show StableHlo.after hostOps1 (W2 m ρ c) (Proc.devRef .tc main_v13) = _
  after_results
  rw [show W2 m ρ c (Proc.devRef .tc main_arg9) = m ((c : Thread nD τ).loc main_arg9) from W2_back m ρ c main_arg9 (by decide) (by decide)]
  rfl
theorem W3_arg1 (c : Dev nD) : W3 m ρ c main_arg1 = m ((c : Thread nD τ).loc main_arg1) :=
  (W3_of m ρ c main_arg1 (by decide)).trans (W2_back m ρ c main_arg1 (by decide) (by decide))

theorem W4_v14 (c : Dev nD) : W4 m ρ c main_v14 = kAe m c := by
  refine (W4_arr m ρ c 3).trans ((arr1 (V3 m ρ) c).trans ?_)
  show aeG (W3 m ρ c main_arg1) (W3 m ρ c main_v12) (W3 m ρ c main_v13) = _
  rw [W3_arg1, W3_v12, W3_v13]

/-- A buffer the second launch leaves alone. -/
theorem W4_v8 (c : Dev nD) : W4 m ρ c main_v8 = kBx m c := (W4_of_ne m ρ c main_v8 (by decide)).trans (W3_v8 m ρ c)
theorem W4_v9 (c : Dev nD) : W4 m ρ c main_v9 = kCx m c := (W4_of_ne m ρ c main_v9 (by decide)).trans (W3_v9 m ρ c)
theorem W4_v10 (c : Dev nD) : W4 m ρ c main_v10 = kVx m c := (W4_of_ne m ρ c main_v10 (by decide)).trans (W3_v10 m ρ c)
theorem W4_v11 (c : Dev nD) : W4 m ρ c main_v11 = kUx m c := (W4_of_ne m ρ c main_v11 (by decide)).trans (W3_v11 m ρ c)
theorem W4_arg2 (c : Dev nD) : W4 m ρ c main_arg2 = m ((c : Thread nD τ).loc main_arg2) :=
  (W4_of_ne m ρ c main_arg2 (by decide)).trans ((W3_of m ρ c main_arg2 (by decide)).trans (W2_back m ρ c main_arg2 (by decide) (by decide)))
theorem W4_arg3 (c : Dev nD) : W4 m ρ c main_arg3 = m ((c : Thread nD τ).loc main_arg3) :=
  (W4_of_ne m ρ c main_arg3 (by decide)).trans ((W3_of m ρ c main_arg3 (by decide)).trans (W2_back m ρ c main_arg3 (by decide) (by decide)))

/-! ## Before and after the edge launch -/

theorem W5_v21 (c : Dev nD) : W5 m ρ c main_v21 = gth (kBx m c) (idxOf (m ((c : Thread nD τ).loc main_arg2))) := by
  show StableHlo.after hostOps2 (W4 m ρ c) (Proc.devRef .tc main_v21) = _
  after_results
  rw [show W4 m ρ c (Proc.devRef .tc main_v8) = kBx m c from W4_v8 m ρ c,
    show W4 m ρ c (Proc.devRef .tc main_arg2) = m ((c : Thread nD τ).loc main_arg2) from W4_arg2 m ρ c]
theorem W5_v28 (c : Dev nD) : W5 m ρ c main_v28 = gth (kCx m c) (idxOf (m ((c : Thread nD τ).loc main_arg3))) := by
  show StableHlo.after hostOps2 (W4 m ρ c) (Proc.devRef .tc main_v28) = _
  after_results
  rw [show W4 m ρ c (Proc.devRef .tc main_v9) = kCx m c from W4_v9 m ρ c,
    show W4 m ρ c (Proc.devRef .tc main_arg3) = m ((c : Thread nD τ).loc main_arg3) from W4_arg3 m ρ c]
theorem W5_v35 (c : Dev nD) : W5 m ρ c main_v35 = gth (kVx m c) (idxOf (m ((c : Thread nD τ).loc main_arg3))) := by
  show StableHlo.after hostOps2 (W4 m ρ c) (Proc.devRef .tc main_v35) = _
  after_results
  rw [show W4 m ρ c (Proc.devRef .tc main_v10) = kVx m c from W4_v10 m ρ c,
    show W4 m ρ c (Proc.devRef .tc main_arg3) = m ((c : Thread nD τ).loc main_arg3) from W4_arg3 m ρ c]
theorem W5_v14 (c : Dev nD) : W5 m ρ c main_v14 = kAe m c := (W5_of m ρ c main_v14 (by decide)).trans (W4_v14 m ρ c)

/-- The edge input before its activation: (bond image + gathered source term) + gathered destination term, -/
abbrev kBond (c : Dev nD) : (⟨S400000x256, .f32⟩ : BufTy).Contents (Elt Ideal) :=
  bondG (kAe m c) (gth (kBx m c) (idxOf (m ((c : Thread nD τ).loc main_arg2)))) (gth (kCx m c) (idxOf (m ((c : Thread nD τ).loc main_arg3))))
/-- and the gated messages. -/
abbrev kMsg (c : Dev nD) : (⟨S400000x256, .f32⟩ : BufTy).Contents (Elt Ideal) :=
  msgG (kAe m c) (gth (kBx m c) (idxOf (m ((c : Thread nD τ).loc main_arg2)))) (gth (kCx m c) (idxOf (m ((c : Thread nD τ).loc main_arg3)))) (gth (kVx m c) (idxOf (m ((c : Thread nD τ).loc main_arg3))))

theorem W6_v36_0 (c : Dev nD) : W6 m ρ c main_v36_0 = kBond m c := by
  refine (W6_arr m ρ c 4).trans ((arr2_4 (V5 m ρ) c).trans ?_)
  show bondG (W5 m ρ c main_v14) (W5 m ρ c main_v21) (W5 m ρ c main_v28) = _
  rw [W5_v14, W5_v21, W5_v28]
theorem W6_v36_1 (c : Dev nD) : W6 m ρ c main_v36_1 = kMsg m c := by
  refine (W6_arr m ρ c 5).trans ((arr2_5 (V5 m ρ) c).trans ?_)
  show msgG (W5 m ρ c main_v14) (W5 m ρ c main_v21) (W5 m ρ c main_v28) (W5 m ρ c main_v35) = _
  rw [W5_v14, W5_v21, W5_v28, W5_v35]
theorem W6_arg2 (c : Dev nD) : W6 m ρ c main_arg2 = m ((c : Thread nD τ).loc main_arg2) :=
  (W6_of_ne m ρ c main_arg2 (by decide)).trans ((W5_of m ρ c main_arg2 (by decide)).trans (W4_arg2 m ρ c))
theorem W6_v11 (c : Dev nD) : W6 m ρ c main_v11 = kUx m c :=
  (W6_of_ne m ρ c main_v11 (by decide)).trans ((W5_of m ρ c main_v11 (by decide)).trans (W4_v11 m ρ c))

/-! ## Before and after the finalising launch -/

theorem W7_v39 (c : Dev nD) : W7 m ρ c main_v39 = agg (m ((c : Thread nD τ).loc main_arg2)) (kMsg m c) := by
  show StableHlo.after hostOps3 (W6 m ρ c) (Proc.devRef .tc main_v39) = _
  after_results
  rw [show W6 m ρ c (Proc.devRef .tc main_v36_1) = kMsg m c from W6_v36_1 m ρ c,
    show W6 m ρ c (Proc.devRef .tc main_arg2) = m ((c : Thread nD τ).loc main_arg2) from W6_arg2 m ρ c]
theorem W7_v11 (c : Dev nD) : W7 m ρ c main_v11 = kUx m c := (W7_of m ρ c main_v11 (by decide)).trans (W6_v11 m ρ c)

/-! ## The two results -/

/-- The atom result: max(U-image + aggregated messages, 0). -/
theorem W8_v40 (c : Dev nD) : W8 m ρ c main_v40 = atomG (kUx m c) (agg (m ((c : Thread nD τ).loc main_arg2)) (kMsg m c)) := by
  refine (W8_main_v40 m ρ c).trans ((arr3 (V7 m ρ) c).trans ?_)
  show atomG (W7 m ρ c main_v11) (W7 m ρ c main_v39) = _
  rw [W7_v11, W7_v39]
/-- The bond result: the activated edge input. -/
theorem W8_v36_0 (c : Dev nD) : W8 m ρ c main_v36_0 = kBond m c :=
  (W8_main_v36_0 m ρ c).trans ((W6_arr m ρ c 4).symm.trans (W6_v36_0 m ρ c))

end Cert.KernelIdeal.Val

end
-- ==== Proof.Linear.lean ====
/-
  The linear layers, entry by entry, at the ideal values. One function says what a linear layer is: row p of the
  features against column q of the transposed weight, plus entry q of the bias. On the kernel's side, column block n
  of the stacked image (features against the four transposed weights side by side, plus the four biases end to
  end) is that function of weight n and bias n: an entry of the stacked weights in column 256·n + q is the entry of
  weight n in column q, and likewise for the biases; the bond-side launch's image is that function directly. On the
  reference's side a host matrix product plus the bias laid over the rows is the same function.
-/
import proofs.«122269_j22239340658714_1_alg».proof.Proof.Arr0
import proofs.«122269_j22239340658714_1_alg».proof.Proof.Arr1
import proofs.«122269_j22239340658714_1_alg».proof.Proof.Pieces
import proofs.«122269_j22239340658714_1_alg».proof.Proof.LibDotPlain
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.ValueIdx

/-- A linear layer over the 100000 atoms, entry by entry: features · transposed weight + bias. -/
abbrev linG1 (X : FVec Ideal S100000x256 .f32) (wt : FVec Ideal S256x256 .f32) (b : FVec Ideal S256 .f32) : FVec Ideal S100000x256 .f32 :=
  fun i => (∑ k : Fin 256, X (ix2 (i 0) k) * wt (ix2 k (i 1))) + b (ix1 (i 1))
/-- The same over the 400000 bonds. -/
abbrev linG4 (E : FVec Ideal S400000x256 .f32) (wt : FVec Ideal S256x256 .f32) (b : FVec Ideal S256 .f32) : FVec Ideal S400000x256 .f32 :=
  fun i => (∑ k : Fin 256, E (ix2 (i 0) k) * wt (ix2 k (i 1))) + b (ix1 (i 1))

/-! ## The stacked weights and biases, read in column 256·n + q -/

theorem wcat_0 (w0 w1 w2 w3 : (⟨S256x256, .f32⟩ : BufTy).Contents (Elt Ideal)) (k q : Fin 256) :
    wcatOf w0 w1 w2 w3 (ix2 k (⟨0 + q.val, by have := q.isLt; omega⟩ : Fin 1024)) = tr w0 (ix2 k q) :=
  concatenate_apply_piece (t := S256x1024) (1 : Fin 2) [⟨S256x256, tr w0⟩, ⟨S256x256, tr w1⟩, ⟨S256x256, tr w2⟩, ⟨S256x256, tr w3⟩]
    (show Shape.Concatenates (([⟨S256x256, tr w0⟩, ⟨S256x256, tr w1⟩, ⟨S256x256, tr w2⟩, ⟨S256x256, tr w3⟩] : List ((s : Shape) × (s.Idx → Ideal .f32))).map (·.1)) S256x1024 1
      from concatenates_S256x256_S256x256_S256x256_S256x256_S256x1024_d1) (ix2 k (⟨0 + q.val, by have := q.isLt; omega⟩ : Fin 1024))
    0 (by show (0 : Nat) < 4; omega) S256x256 (tr w0) rfl rfl 0 rfl (ix2 k q)
    (fun b hb => by match b, hb with | ⟨0, _⟩, _ => rfl | ⟨1, _⟩, hb => exact absurd rfl hb) rfl

theorem wcat_1 (w0 w1 w2 w3 : (⟨S256x256, .f32⟩ : BufTy).Contents (Elt Ideal)) (k q : Fin 256) :
    wcatOf w0 w1 w2 w3 (ix2 k (⟨256 + q.val, by have := q.isLt; omega⟩ : Fin 1024)) = tr w1 (ix2 k q) :=
  concatenate_apply_piece (t := S256x1024) (1 : Fin 2) [⟨S256x256, tr w0⟩, ⟨S256x256, tr w1⟩, ⟨S256x256, tr w2⟩, ⟨S256x256, tr w3⟩]
    (show Shape.Concatenates (([⟨S256x256, tr w0⟩, ⟨S256x256, tr w1⟩, ⟨S256x256, tr w2⟩, ⟨S256x256, tr w3⟩] : List ((s : Shape) × (s.Idx → Ideal .f32))).map (·.1)) S256x1024 1
      from concatenates_S256x256_S256x256_S256x256_S256x256_S256x1024_d1) (ix2 k (⟨256 + q.val, by have := q.isLt; omega⟩ : Fin 1024))
    1 (by show (1 : Nat) < 4; omega) S256x256 (tr w1) rfl rfl 256 rfl (ix2 k q)
    (fun b hb => by match b, hb with | ⟨0, _⟩, _ => rfl | ⟨1, _⟩, hb => exact absurd rfl hb) rfl

theorem wcat_2 (w0 w1 w2 w3 : (⟨S256x256, .f32⟩ : BufTy).Contents (Elt Ideal)) (k q : Fin 256) :
    wcatOf w0 w1 w2 w3 (ix2 k (⟨512 + q.val, by have := q.isLt; omega⟩ : Fin 1024)) = tr w2 (ix2 k q) :=
  concatenate_apply_piece (t := S256x1024) (1 : Fin 2) [⟨S256x256, tr w0⟩, ⟨S256x256, tr w1⟩, ⟨S256x256, tr w2⟩, ⟨S256x256, tr w3⟩]
    (show Shape.Concatenates (([⟨S256x256, tr w0⟩, ⟨S256x256, tr w1⟩, ⟨S256x256, tr w2⟩, ⟨S256x256, tr w3⟩] : List ((s : Shape) × (s.Idx → Ideal .f32))).map (·.1)) S256x1024 1
      from concatenates_S256x256_S256x256_S256x256_S256x256_S256x1024_d1) (ix2 k (⟨512 + q.val, by have := q.isLt; omega⟩ : Fin 1024))
    2 (by show (2 : Nat) < 4; omega) S256x256 (tr w2) rfl rfl 512 rfl (ix2 k q)
    (fun b hb => by match b, hb with | ⟨0, _⟩, _ => rfl | ⟨1, _⟩, hb => exact absurd rfl hb) rfl

theorem wcat_3 (w0 w1 w2 w3 : (⟨S256x256, .f32⟩ : BufTy).Contents (Elt Ideal)) (k q : Fin 256) :
    wcatOf w0 w1 w2 w3 (ix2 k (⟨768 + q.val, by have := q.isLt; omega⟩ : Fin 1024)) = tr w3 (ix2 k q) :=
  concatenate_apply_piece (t := S256x1024) (1 : Fin 2) [⟨S256x256, tr w0⟩, ⟨S256x256, tr w1⟩, ⟨S256x256, tr w2⟩, ⟨S256x256, tr w3⟩]
    (show Shape.Concatenates (([⟨S256x256, tr w0⟩, ⟨S256x256, tr w1⟩, ⟨S256x256, tr w2⟩, ⟨S256x256, tr w3⟩] : List ((s : Shape) × (s.Idx → Ideal .f32))).map (·.1)) S256x1024 1
      from concatenates_S256x256_S256x256_S256x256_S256x256_S256x1024_d1) (ix2 k (⟨768 + q.val, by have := q.isLt; omega⟩ : Fin 1024))
    3 (by show (3 : Nat) < 4; omega) S256x256 (tr w3) rfl rfl 768 rfl (ix2 k q)
    (fun b hb => by match b, hb with | ⟨0, _⟩, _ => rfl | ⟨1, _⟩, hb => exact absurd rfl hb) rfl

theorem bcat_0 (b0 b1 b2 b3 : (⟨S256, .f32⟩ : BufTy).Contents (Elt Ideal)) (q : Fin 256) :
    bcatOf b0 b1 b2 b3 (ix2 (0 : Fin 1) (⟨0 + q.val, by have := q.isLt; omega⟩ : Fin 1024)) = b0 (ix1 q) := by
  have hq : q.val < 256 := q.isLt
  refine (shapeCast_apply _ shapeCasts_S1024_S1x1024 (ix2 (0 : Fin 1) (⟨0 + q.val, by omega⟩ : Fin 1024)) (ix1 (⟨0 + q.val, by omega⟩ : Fin 1024))
    (by rw [Shape.rowMajor_val_one, Shape.rowMajor_val_two]; show 0 + q.val = 0 * 1024 + (0 + q.val); omega)).trans ?_
  exact concatenate_apply_piece (t := S1024) (0 : Fin 1) [⟨S256, b0⟩, ⟨S256, b1⟩, ⟨S256, b2⟩, ⟨S256, b3⟩]
    (show Shape.Concatenates (([⟨S256, b0⟩, ⟨S256, b1⟩, ⟨S256, b2⟩, ⟨S256, b3⟩] : List ((s : Shape) × (s.Idx → Ideal .f32))).map (·.1)) S1024 0
      from concatenates_S256_S256_S256_S256_S1024_d0) (ix1 (⟨0 + q.val, by omega⟩ : Fin 1024))
    0 (by show (0 : Nat) < 4; omega) S256 b0 rfl rfl 0 rfl (ix1 q)
    (fun b hb => by match b, hb with | ⟨0, _⟩, hb => exact absurd rfl hb) rfl

theorem bcat_1 (b0 b1 b2 b3 : (⟨S256, .f32⟩ : BufTy).Contents (Elt Ideal)) (q : Fin 256) :
    bcatOf b0 b1 b2 b3 (ix2 (0 : Fin 1) (⟨256 + q.val, by have := q.isLt; omega⟩ : Fin 1024)) = b1 (ix1 q) := by
  have hq : q.val < 256 := q.isLt
  refine (shapeCast_apply _ shapeCasts_S1024_S1x1024 (ix2 (0 : Fin 1) (⟨256 + q.val, by omega⟩ : Fin 1024)) (ix1 (⟨256 + q.val, by omega⟩ : Fin 1024))
    (by rw [Shape.rowMajor_val_one, Shape.rowMajor_val_two]; show 256 + q.val = 0 * 1024 + (256 + q.val); omega)).trans ?_
  exact concatenate_apply_piece (t := S1024) (0 : Fin 1) [⟨S256, b0⟩, ⟨S256, b1⟩, ⟨S256, b2⟩, ⟨S256, b3⟩]
    (show Shape.Concatenates (([⟨S256, b0⟩, ⟨S256, b1⟩, ⟨S256, b2⟩, ⟨S256, b3⟩] : List ((s : Shape) × (s.Idx → Ideal .f32))).map (·.1)) S1024 0
      from concatenates_S256_S256_S256_S256_S1024_d0) (ix1 (⟨256 + q.val, by omega⟩ : Fin 1024))
    1 (by show (1 : Nat) < 4; omega) S256 b1 rfl rfl 256 rfl (ix1 q)
    (fun b hb => by match b, hb with | ⟨0, _⟩, hb => exact absurd rfl hb) rfl

theorem bcat_2 (b0 b1 b2 b3 : (⟨S256, .f32⟩ : BufTy).Contents (Elt Ideal)) (q : Fin 256) :
    bcatOf b0 b1 b2 b3 (ix2 (0 : Fin 1) (⟨512 + q.val, by have := q.isLt; omega⟩ : Fin 1024)) = b2 (ix1 q) := by
  have hq : q.val < 256 := q.isLt
  refine (shapeCast_apply _ shapeCasts_S1024_S1x1024 (ix2 (0 : Fin 1) (⟨512 + q.val, by omega⟩ : Fin 1024)) (ix1 (⟨512 + q.val, by omega⟩ : Fin 1024))
    (by rw [Shape.rowMajor_val_one, Shape.rowMajor_val_two]; show 512 + q.val = 0 * 1024 + (512 + q.val); omega)).trans ?_
  exact concatenate_apply_piece (t := S1024) (0 : Fin 1) [⟨S256, b0⟩, ⟨S256, b1⟩, ⟨S256, b2⟩, ⟨S256, b3⟩]
    (show Shape.Concatenates (([⟨S256, b0⟩, ⟨S256, b1⟩, ⟨S256, b2⟩, ⟨S256, b3⟩] : List ((s : Shape) × (s.Idx → Ideal .f32))).map (·.1)) S1024 0
      from concatenates_S256_S256_S256_S256_S1024_d0) (ix1 (⟨512 + q.val, by omega⟩ : Fin 1024))
    2 (by show (2 : Nat) < 4; omega) S256 b2 rfl rfl 512 rfl (ix1 q)
    (fun b hb => by match b, hb with | ⟨0, _⟩, hb => exact absurd rfl hb) rfl

theorem bcat_3 (b0 b1 b2 b3 : (⟨S256, .f32⟩ : BufTy).Contents (Elt Ideal)) (q : Fin 256) :
    bcatOf b0 b1 b2 b3 (ix2 (0 : Fin 1) (⟨768 + q.val, by have := q.isLt; omega⟩ : Fin 1024)) = b3 (ix1 q) := by
  have hq : q.val < 256 := q.isLt
  refine (shapeCast_apply _ shapeCasts_S1024_S1x1024 (ix2 (0 : Fin 1) (⟨768 + q.val, by omega⟩ : Fin 1024)) (ix1 (⟨768 + q.val, by omega⟩ : Fin 1024))
    (by rw [Shape.rowMajor_val_one, Shape.rowMajor_val_two]; show 768 + q.val = 0 * 1024 + (768 + q.val); omega)).trans ?_
  exact concatenate_apply_piece (t := S1024) (0 : Fin 1) [⟨S256, b0⟩, ⟨S256, b1⟩, ⟨S256, b2⟩, ⟨S256, b3⟩]
    (show Shape.Concatenates (([⟨S256, b0⟩, ⟨S256, b1⟩, ⟨S256, b2⟩, ⟨S256, b3⟩] : List ((s : Shape) × (s.Idx → Ideal .f32))).map (·.1)) S1024 0
      from concatenates_S256_S256_S256_S256_S1024_d0) (ix1 (⟨768 + q.val, by omega⟩ : Fin 1024))
    3 (by show (3 : Nat) < 4; omega) S256 b3 rfl rfl 768 rfl (ix1 q)
    (fun b hb => by match b, hb with | ⟨0, _⟩, hb => exact absurd rfl hb) rfl

/-! ## The kernel's linear images -/

/-- Column block 0 of the stacked image is the linear image by weight 0 and bias 0. -/
theorem col0_eq (X : (⟨S100000x256, .f32⟩ : BufTy).Contents (Elt Ideal)) (w0 w1 w2 w3 : (⟨S256x256, .f32⟩ : BufTy).Contents (Elt Ideal)) (b0 b1 b2 b3 : (⟨S256, .f32⟩ : BufTy).Contents (Elt Ideal)) :
    col0 (stackedG X (wcatOf w0 w1 w2 w3) (bcatOf b0 b1 b2 b3)) = linG1 X (tr w0) b0 := by
  funext i
  obtain ⟨p, q, rfl⟩ : ∃ (p : Fin 100000) (q : Fin 256), i = ix2 p q := ⟨i 0, i 1, eq_ix2 i⟩
  have hq : q.val < 256 := q.isLt
  refine (extractStridedSlice_apply ![0, 0] _ slices_S100000x1024_S100000x256_0_0 (ix2 p q) (ix2 p (⟨0 + q.val, by omega⟩ : Fin 1024))
    (fun a => by match a with | ⟨0, _⟩ => exact (Nat.zero_add _).symm | ⟨1, _⟩ => rfl)).trans ?_
  show (∑ k : Fin 256, X (ix2 p k) * wcatOf w0 w1 w2 w3 (ix2 k (⟨0 + q.val, by omega⟩ : Fin 1024)))
      + bcatOf b0 b1 b2 b3 (ix2 (0 : Fin 1) (⟨0 + q.val, by omega⟩ : Fin 1024))
    = (∑ k : Fin 256, X (ix2 p k) * tr w0 (ix2 k q)) + b0 (ix1 q)
  rw [bcat_0 b0 b1 b2 b3 q]
  refine congrArg₂ (· + ·) (Finset.sum_congr rfl fun k _ => ?_) rfl
  rw [wcat_0 w0 w1 w2 w3 k q]

/-- Column block 1 of the stacked image is the linear image by weight 1 and bias 1. -/
theorem col1_eq (X : (⟨S100000x256, .f32⟩ : BufTy).Contents (Elt Ideal)) (w0 w1 w2 w3 : (⟨S256x256, .f32⟩ : BufTy).Contents (Elt Ideal)) (b0 b1 b2 b3 : (⟨S256, .f32⟩ : BufTy).Contents (Elt Ideal)) :
    col1 (stackedG X (wcatOf w0 w1 w2 w3) (bcatOf b0 b1 b2 b3)) = linG1 X (tr w1) b1 := by
  funext i
  obtain ⟨p, q, rfl⟩ : ∃ (p : Fin 100000) (q : Fin 256), i = ix2 p q := ⟨i 0, i 1, eq_ix2 i⟩
  have hq : q.val < 256 := q.isLt
  refine (extractStridedSlice_apply ![0, 256] _ slices_S100000x1024_S100000x256_0_256 (ix2 p q) (ix2 p (⟨256 + q.val, by omega⟩ : Fin 1024))
    (fun a => by match a with | ⟨0, _⟩ => exact (Nat.zero_add _).symm | ⟨1, _⟩ => rfl)).trans ?_
  show (∑ k : Fin 256, X (ix2 p k) * wcatOf w0 w1 w2 w3 (ix2 k (⟨256 + q.val, by omega⟩ : Fin 1024)))
      + bcatOf b0 b1 b2 b3 (ix2 (0 : Fin 1) (⟨256 + q.val, by omega⟩ : Fin 1024))
    = (∑ k : Fin 256, X (ix2 p k) * tr w1 (ix2 k q)) + b1 (ix1 q)
  rw [bcat_1 b0 b1 b2 b3 q]
  refine congrArg₂ (· + ·) (Finset.sum_congr rfl fun k _ => ?_) rfl
  rw [wcat_1 w0 w1 w2 w3 k q]

/-- Column block 2 of the stacked image is the linear image by weight 2 and bias 2. -/
theorem col2_eq (X : (⟨S100000x256, .f32⟩ : BufTy).Contents (Elt Ideal)) (w0 w1 w2 w3 : (⟨S256x256, .f32⟩ : BufTy).Contents (Elt Ideal)) (b0 b1 b2 b3 : (⟨S256, .f32⟩ : BufTy).Contents (Elt Ideal)) :
    col2 (stackedG X (wcatOf w0 w1 w2 w3) (bcatOf b0 b1 b2 b3)) = linG1 X (tr w2) b2 := by
  funext i
  obtain ⟨p, q, rfl⟩ : ∃ (p : Fin 100000) (q : Fin 256), i = ix2 p q := ⟨i 0, i 1, eq_ix2 i⟩
  have hq : q.val < 256 := q.isLt
  refine (extractStridedSlice_apply ![0, 512] _ slices_S100000x1024_S100000x256_0_512 (ix2 p q) (ix2 p (⟨512 + q.val, by omega⟩ : Fin 1024))
    (fun a => by match a with | ⟨0, _⟩ => exact (Nat.zero_add _).symm | ⟨1, _⟩ => rfl)).trans ?_
  show (∑ k : Fin 256, X (ix2 p k) * wcatOf w0 w1 w2 w3 (ix2 k (⟨512 + q.val, by omega⟩ : Fin 1024)))
      + bcatOf b0 b1 b2 b3 (ix2 (0 : Fin 1) (⟨512 + q.val, by omega⟩ : Fin 1024))
    = (∑ k : Fin 256, X (ix2 p k) * tr w2 (ix2 k q)) + b2 (ix1 q)
  rw [bcat_2 b0 b1 b2 b3 q]
  refine congrArg₂ (· + ·) (Finset.sum_congr rfl fun k _ => ?_) rfl
  rw [wcat_2 w0 w1 w2 w3 k q]

/-- Column block 3 of the stacked image is the linear image by weight 3 and bias 3. -/
theorem col3_eq (X : (⟨S100000x256, .f32⟩ : BufTy).Contents (Elt Ideal)) (w0 w1 w2 w3 : (⟨S256x256, .f32⟩ : BufTy).Contents (Elt Ideal)) (b0 b1 b2 b3 : (⟨S256, .f32⟩ : BufTy).Contents (Elt Ideal)) :
    col3 (stackedG X (wcatOf w0 w1 w2 w3) (bcatOf b0 b1 b2 b3)) = linG1 X (tr w3) b3 := by
  funext i
  obtain ⟨p, q, rfl⟩ : ∃ (p : Fin 100000) (q : Fin 256), i = ix2 p q := ⟨i 0, i 1, eq_ix2 i⟩
  have hq : q.val < 256 := q.isLt
  refine (extractStridedSlice_apply ![0, 768] _ slices_S100000x1024_S100000x256_0_768 (ix2 p q) (ix2 p (⟨768 + q.val, by omega⟩ : Fin 1024))
    (fun a => by match a with | ⟨0, _⟩ => exact (Nat.zero_add _).symm | ⟨1, _⟩ => rfl)).trans ?_
  show (∑ k : Fin 256, X (ix2 p k) * wcatOf w0 w1 w2 w3 (ix2 k (⟨768 + q.val, by omega⟩ : Fin 1024)))
      + bcatOf b0 b1 b2 b3 (ix2 (0 : Fin 1) (⟨768 + q.val, by omega⟩ : Fin 1024))
    = (∑ k : Fin 256, X (ix2 p k) * tr w3 (ix2 k q)) + b3 (ix1 q)
  rw [bcat_3 b0 b1 b2 b3 q]
  refine congrArg₂ (· + ·) (Finset.sum_congr rfl fun k _ => ?_) rfl
  rw [wcat_3 w0 w1 w2 w3 k q]

/-- The bond-side launch's image, its bias given as one row. -/
theorem ae_eq (E : (⟨S400000x256, .f32⟩ : BufTy).Contents (Elt Ideal)) (wt : (⟨S256x256, .f32⟩ : BufTy).Contents (Elt Ideal)) (b : (⟨S256, .f32⟩ : BufTy).Contents (Elt Ideal)) :
    aeG E wt (rowOf b) = linG4 E wt b := by
  funext i
  obtain ⟨p, q, rfl⟩ : ∃ (p : Fin 400000) (q : Fin 256), i = ix2 p q := ⟨i 0, i 1, eq_ix2 i⟩
  show (∑ k : Fin 256, E (ix2 p k) * wt (ix2 k q)) + rowOf b (ix2 (0 : Fin 1) q) = (∑ k : Fin 256, E (ix2 p k) * wt (ix2 k q)) + b (ix1 q)
  refine congrArg₂ (· + ·) rfl ?_
  exact shapeCast_apply _ shapeCasts_S256_S1x256 (ix2 (0 : Fin 1) q) (ix1 q)
    (by rw [Shape.rowMajor_val_one, Shape.rowMajor_val_two]; show q.val = 0 * 256 + q.val; omega)

/-! ## The reference's linear images: a host product plus the bias laid over the rows -/

/-- Over the atoms, for any dimension numbers that contract the features' columns against the weight's rows. -/
theorem hostLin1_eq (d : DotDims S100000x256 S256x256 S100000x256)
    (hlb : d.lhsBatch = []) (hrb : d.rhsBatch = []) (hlc : d.lhsContracting = [1]) (hrc : d.rhsContracting = [0])
    (hln : d.lhsNonContracting = [0]) (hrn : d.rhsNonContracting = [1])
    (h1 : S256.BroadcastsInDim S1x256 (![1] : Fin 1 → Fin S1x256.rank)) (h2 : S1x256.BroadcastsInDim S100000x256 (![0, 1] : Fin 2 → Fin S100000x256.rank))
    (X : FVec Ideal S100000x256 .f32) (wt : FVec Ideal S256x256 .f32) (b : FVec Ideal S256 .f32) :
    addf (Host.dotGeneral d none X wt) (broadcastInDim S100000x256 ![0, 1] h2 (broadcastInDim S1x256 ![1] h1 b)) = linG1 X wt b := by
  funext i
  obtain ⟨p, q, rfl⟩ : ∃ (p : Fin 100000) (q : Fin 256), i = ix2 p q := ⟨i 0, i 1, eq_ix2 i⟩
  rw [addf_apply]
  refine congrArg₂ (· + ·) (Cert.DotPlain.dotGeneral_rows_cols d hlb hrb hlc hrc hln hrn none .single X wt p q) ?_
  refine (broadcastInDim_apply _ h2 _ (ix2 p q) (ix2 (0 : Fin 1) q) (fun a => by match a with | ⟨0, _⟩ => rfl | ⟨1, _⟩ => rfl)).trans ?_
  exact broadcastInDim_apply _ h1 b (ix2 (0 : Fin 1) q) (ix1 q) (fun a => by match a with | ⟨0, _⟩ => rfl)

/-- Over the bonds. -/
theorem hostLin4_eq (d : DotDims S400000x256 S256x256 S400000x256)
    (hlb : d.lhsBatch = []) (hrb : d.rhsBatch = []) (hlc : d.lhsContracting = [1]) (hrc : d.rhsContracting = [0])
    (hln : d.lhsNonContracting = [0]) (hrn : d.rhsNonContracting = [1])
    (h1 : S256.BroadcastsInDim S1x256 (![1] : Fin 1 → Fin S1x256.rank)) (h2 : S1x256.BroadcastsInDim S400000x256 (![0, 1] : Fin 2 → Fin S400000x256.rank))
    (E : FVec Ideal S400000x256 .f32) (wt : FVec Ideal S256x256 .f32) (b : FVec Ideal S256 .f32) :
    addf (Host.dotGeneral d none E wt) (broadcastInDim S400000x256 ![0, 1] h2 (broadcastInDim S1x256 ![1] h1 b)) = linG4 E wt b := by
  funext i
  obtain ⟨p, q, rfl⟩ : ∃ (p : Fin 400000) (q : Fin 256), i = ix2 p q := ⟨i 0, i 1, eq_ix2 i⟩
  rw [addf_apply]
  refine congrArg₂ (· + ·) (Cert.DotPlain.dotGeneral_rows_cols d hlb hrb hlc hrc hln hrn none .single E wt p q) ?_
  refine (broadcastInDim_apply _ h2 _ (ix2 p q) (ix2 (0 : Fin 1) q) (fun a => by match a with | ⟨0, _⟩ => rfl | ⟨1, _⟩ => rfl)).trans ?_
  exact broadcastInDim_apply _ h1 b (ix2 (0 : Fin 1) q) (ix1 q) (fun a => by match a with | ⟨0, _⟩ => rfl)

end Cert.KernelIdeal.Val

end
-- ==== Proof.RefText.lean ====
/-
  The reference program's two results as functions of the argument arrays, in the reference's own operations: a
  linear layer is a host matrix product against the transposed weight plus the bias laid over the rows; the edge
  input is the bond's linear image plus the gathered source and destination terms; the bond result is its
  maximum with zero; the messages are 1 / (1 + exp(−input)) times the gathered value term; the atom result is the
  maximum with zero of the atoms' own linear image plus the scatter-add of the messages.
-/
import proofs.«122269_j22239340658714_1_alg».proof.Proof.Gen.ReferenceIdeal
import Idealize.ShloMosaic.PureOps.Ideal

noncomputable section

namespace Cert.ReferenceIdeal.RefVal

open Cert.ReferenceIdeal Idealize.ShloMosaic
open Facts₀ Facts

/-- A linear layer over the atoms. -/
def lin1 (X : FVec Ideal S100000x256 .f32) (w : FVec Ideal S256x256 .f32) (b : FVec Ideal S256 .f32) : FVec Ideal S100000x256 .f32 :=
  (addf (F := Ideal) (Host.dotGeneral (F := Ideal) dot_S100000x256_S256x256_S100000x256_1_0_0_1_n_n none X (transpose S256x256 [1, 0] w transposes_S256x256_S256x256_1_0)) (broadcastInDim S100000x256 ![0, 1] bcast_S1x256_S100000x256_0_1 (broadcastInDim S1x256 ![1] bcast_S256_S1x256_1 b)))
/-- A linear layer over the bonds. -/
def lin4 (E : FVec Ideal S400000x256 .f32) (Aw : FVec Ideal S256x256 .f32) (Ab : FVec Ideal S256 .f32) : FVec Ideal S400000x256 .f32 :=
  (addf (F := Ideal) (Host.dotGeneral (F := Ideal) dot_S400000x256_S256x256_S400000x256_1_0_0_1_n_n none E (transpose S256x256 [1, 0] Aw transposes_S256x256_S256x256_1_0)) (broadcastInDim S400000x256 ![0, 1] bcast_S1x256_S400000x256_0_1 (broadcastInDim S1x256 ![1] bcast_S256_S1x256_1 Ab)))

/-- The bond result. -/
def refBond (X : FVec Ideal S100000x256 .f32) (E : FVec Ideal S400000x256 .f32) (src dst : IVec S400000 32)
    (Uw : FVec Ideal S256x256 .f32) (Ub : FVec Ideal S256 .f32) (Vw : FVec Ideal S256x256 .f32) (Vb : FVec Ideal S256 .f32)
    (Aw : FVec Ideal S256x256 .f32) (Ab : FVec Ideal S256 .f32) (Bw : FVec Ideal S256x256 .f32) (Bb : FVec Ideal S256 .f32)
    (Cw : FVec Ideal S256x256 .f32) (Cb : FVec Ideal S256 .f32) : FVec Ideal S400000x256 .f32 :=
  maximumf (F := Ideal) (addf (F := Ideal) (addf (F := Ideal) (lin4 E Aw Ab) (Host.gather gather_S100000x256_S400000x1_S400000x256_1_0_n_n_0_1_1256 (lin1 X Bw Bb) (broadcastInDim S400000x1 ![0] bcast_S400000_S400000x1_0 (select (cmpi .slt src (broadcastInDim S400000 ![] bcast_S_S400000 (constantI S_ 32 0#32))) (addi src (broadcastInDim S400000 ![] bcast_S_S400000 (constantI S_ 32 100000#32))) src)))) (Host.gather gather_S100000x256_S400000x1_S400000x256_1_0_n_n_0_1_1256 (lin1 X Cw Cb) (broadcastInDim S400000x1 ![0] bcast_S400000_S400000x1_0 (select (cmpi .slt dst (broadcastInDim S400000 ![] bcast_S_S400000 (constantI S_ 32 0#32))) (addi dst (broadcastInDim S400000 ![] bcast_S_S400000 (constantI S_ 32 100000#32))) dst)))) (broadcastInDim S400000x256 ![] bcast_S_S400000x256 (constant (F := Ideal) S_ .f32 0x00000000#32))

/-- The atom result. -/
def refAtom (X : FVec Ideal S100000x256 .f32) (E : FVec Ideal S400000x256 .f32) (src dst : IVec S400000 32)
    (Uw : FVec Ideal S256x256 .f32) (Ub : FVec Ideal S256 .f32) (Vw : FVec Ideal S256x256 .f32) (Vb : FVec Ideal S256 .f32)
    (Aw : FVec Ideal S256x256 .f32) (Ab : FVec Ideal S256 .f32) (Bw : FVec Ideal S256x256 .f32) (Bb : FVec Ideal S256 .f32)
    (Cw : FVec Ideal S256x256 .f32) (Cb : FVec Ideal S256 .f32) : FVec Ideal S100000x256 .f32 :=
  maximumf (F := Ideal) (addf (F := Ideal) (lin1 X Uw Ub) (Host.scatterAdd (F := Ideal) scatter_S100000x256_S400000x1_S400000x256_1_0_0_1 (broadcastInDim S100000x256 ![] bcast_S_S100000x256 (constant (F := Ideal) S_ .f32 0x00000000#32)) (broadcastInDim S400000x1 ![0] bcast_S400000_S400000x1_0 src) (mulf (F := Ideal) (Host.divf (F := Ideal) (broadcastInDim S400000x256 ![] bcast_S_S400000x256 (constant (F := Ideal) S_ .f32 0x3F800000#32)) (addf (F := Ideal) (broadcastInDim S400000x256 ![] bcast_S_S400000x256 (constant (F := Ideal) S_ .f32 0x3F800000#32)) (Host.exp (F := Ideal) (Host.negf (F := Ideal) (addf (F := Ideal) (addf (F := Ideal) (lin4 E Aw Ab) (Host.gather gather_S100000x256_S400000x1_S400000x256_1_0_n_n_0_1_1256 (lin1 X Bw Bb) (broadcastInDim S400000x1 ![0] bcast_S400000_S400000x1_0 (select (cmpi .slt src (broadcastInDim S400000 ![] bcast_S_S400000 (constantI S_ 32 0#32))) (addi src (broadcastInDim S400000 ![] bcast_S_S400000 (constantI S_ 32 100000#32))) src)))) (Host.gather gather_S100000x256_S400000x1_S400000x256_1_0_n_n_0_1_1256 (lin1 X Cw Cb) (broadcastInDim S400000x1 ![0] bcast_S400000_S400000x1_0 (select (cmpi .slt dst (broadcastInDim S400000 ![] bcast_S_S400000 (constantI S_ 32 0#32))) (addi dst (broadcastInDim S400000 ![] bcast_S_S400000 (constantI S_ 32 100000#32))) dst)))))))) (Host.gather gather_S100000x256_S400000x1_S400000x256_1_0_n_n_0_1_1256 (lin1 X Vw Vb) (broadcastInDim S400000x1 ![0] bcast_S400000_S400000x1_0 (select (cmpi .slt dst (broadcastInDim S400000 ![] bcast_S_S400000 (constantI S_ 32 0#32))) (addi dst (broadcastInDim S400000 ![] bcast_S_S400000 (constantI S_ 32 100000#32))) dst)))))) (broadcastInDim S100000x256 ![] bcast_S_S100000x256 (constant (F := Ideal) S_ .f32 0x00000000#32))

end Cert.ReferenceIdeal.RefVal

end
-- ==== Proof.Bridge.lean ====
/-
  The kernel program's two results are the reference's. With every linear image rewritten to the one entry-by-entry
  function on both sides (the module of the linear layers), what is left is pointwise: the kernel's max(·, 0)
  against the reference's maximum with a zero array; the kernel's logistic against the reference's
  1 / (1 + exp(−·)), which at the ideal values is the logistic function's definition; the gathers and the
  scatter-add are the same operations at the same index arrays on both sides.
-/
import proofs.«122269_j22239340658714_1_alg».proof.Proof.Linear
import proofs.«122269_j22239340658714_1_alg».proof.Proof.Arr2
import proofs.«122269_j22239340658714_1_alg».proof.Proof.Arr3
import proofs.«122269_j22239340658714_1_alg».proof.Proof.RefText
import Idealize.ShloMosaic.Lib.IdealHost

set_option maxRecDepth 16384

noncomputable section

namespace Cert.KernelIdeal.Val

open Cert.KernelIdeal Cert.KernelIdeal.Gen
open Idealize.ShloMosaic Idealize.ShloMosaic.ValueIdx
open Cert.ReferenceIdeal.RefVal (lin1 lin4 refBond refAtom)

/-! ## The reference's linear layers are the entry-by-entry function -/

theorem lin1_eq (X : FVec Ideal S100000x256 .f32) (w : FVec Ideal S256x256 .f32) (b : FVec Ideal S256 .f32) :
    lin1 X w b = linG1 X (tr w) b := by
  unfold lin1
  exact hostLin1_eq Cert.ReferenceIdeal.dot_S100000x256_S256x256_S100000x256_1_0_0_1_n_n rfl rfl rfl rfl rfl rfl _ _ X _ b

theorem lin4_eq (E : FVec Ideal S400000x256 .f32) (w : FVec Ideal S256x256 .f32) (b : FVec Ideal S256 .f32) :
    lin4 E w b = linG4 E (tr w) b := by
  unfold lin4
  exact hostLin4_eq Cert.ReferenceIdeal.dot_S400000x256_S256x256_S400000x256_1_0_0_1_n_n rfl rfl rfl rfl rfl rfl _ _ E _ b

/-! ## The pointwise steps -/

/-- max(g, 0) against the maximum with a zero array. -/
theorem bond_pt (h0 : S_.BroadcastsInDim S400000x256 (![] : Fin 0 → Fin S400000x256.rank)) (a b c : FVec Ideal S400000x256 .f32) :
    bondG (F := Ideal) a b c = maximumf (F := Ideal) (addf (F := Ideal) (addf (F := Ideal) a b) c) (broadcastInDim S400000x256 ![] h0 (constant (F := Ideal) S_ .f32 0x00000000#32)) :=
  funext fun i => rfl
theorem atom_pt (h0 : S_.BroadcastsInDim S100000x256 (![] : Fin 0 → Fin S100000x256.rank)) (u s : FVec Ideal S100000x256 .f32) :
    atomG (F := Ideal) u s = maximumf (F := Ideal) (addf (F := Ideal) u s) (broadcastInDim S100000x256 ![] h0 (constant (F := Ideal) S_ .f32 0x00000000#32)) :=
  funext fun i => rfl
/-- logistic(g) · v against (1 / (1 + exp(−g))) · v: the word 0x3F800000 is the real one, and the quotient is the
    logistic function's definition at the ideal values. -/
theorem msg_pt (h0 : S_.BroadcastsInDim S400000x256 (![] : Fin 0 → Fin S400000x256.rank)) (a b c v : FVec Ideal S400000x256 .f32) :
    msgG (F := Ideal) a b c v = mulf (F := Ideal) (Host.divf (F := Ideal) (broadcastInDim S400000x256 ![] h0 (constant (F := Ideal) S_ .f32 0x3F800000#32))
      (addf (F := Ideal) (broadcastInDim S400000x256 ![] h0 (constant (F := Ideal) S_ .f32 0x3F800000#32)) (Host.exp (F := Ideal) (Host.negf (F := Ideal) (addf (F := Ideal) (addf (F := Ideal) a b) c))))) v := by
  funext i
  show (Ideal.logistic ((a i + b i) + c i) : EReal) * v i
    = Ideal.div (Ideal.ofBits .f32 0x3F800000#32) (Ideal.ofBits .f32 0x3F800000#32 + Ideal.exp (-((a i + b i) + c i))) * v i
  rw [Ideal.ofBits_one_f32]
  rfl

/-! ## The two results -/

/-- The bond result. -/
theorem bond_result (X : FVec Ideal S100000x256 .f32) (E : FVec Ideal S400000x256 .f32) (src dst : IVec S400000 32)
    (Uw : FVec Ideal S256x256 .f32) (Ub : FVec Ideal S256 .f32) (Vw : FVec Ideal S256x256 .f32) (Vb : FVec Ideal S256 .f32)
    (Aw : FVec Ideal S256x256 .f32) (Ab : FVec Ideal S256 .f32) (Bw : FVec Ideal S256x256 .f32) (Bb : FVec Ideal S256 .f32)
    (Cw : FVec Ideal S256x256 .f32) (Cb : FVec Ideal S256 .f32) :
    bondG (F := Ideal) (aeG E (tr Aw) (rowOf Ab)) (gth (col0 (stackedG X (wcatOf Bw Cw Vw Uw) (bcatOf Bb Cb Vb Ub))) (idxOf src)) (gth (col1 (stackedG X (wcatOf Bw Cw Vw Uw) (bcatOf Bb Cb Vb Ub))) (idxOf dst))
      = refBond X E src dst Uw Ub Vw Vb Aw Ab Bw Bb Cw Cb := by
  rw [col0_eq, col1_eq, ae_eq]
  unfold refBond
  rw [lin1_eq, lin1_eq, lin4_eq]
  exact bond_pt _ _ _ _

/-- The atom result. -/
theorem atom_result (X : FVec Ideal S100000x256 .f32) (E : FVec Ideal S400000x256 .f32) (src dst : IVec S400000 32)
    (Uw : FVec Ideal S256x256 .f32) (Ub : FVec Ideal S256 .f32) (Vw : FVec Ideal S256x256 .f32) (Vb : FVec Ideal S256 .f32)
    (Aw : FVec Ideal S256x256 .f32) (Ab : FVec Ideal S256 .f32) (Bw : FVec Ideal S256x256 .f32) (Bb : FVec Ideal S256 .f32)
    (Cw : FVec Ideal S256x256 .f32) (Cb : FVec Ideal S256 .f32) :
    atomG (F := Ideal) (col3 (stackedG X (wcatOf Bw Cw Vw Uw) (bcatOf Bb Cb Vb Ub))) (agg src (msgG (F := Ideal) (aeG E (tr Aw) (rowOf Ab)) (gth (col0 (stackedG X (wcatOf Bw Cw Vw Uw) (bcatOf Bb Cb Vb Ub))) (idxOf src)) (gth (col1 (stackedG X (wcatOf Bw Cw Vw Uw) (bcatOf Bb Cb Vb Ub))) (idxOf dst)) (gth (col2 (stackedG X (wcatOf Bw Cw Vw Uw) (bcatOf Bb Cb Vb Ub))) (idxOf dst))))
      = refAtom X E src dst Uw Ub Vw Vb Aw Ab Bw Bb Cw Cb := by
  rw [col0_eq, col1_eq, col2_eq, col3_eq, ae_eq]
  unfold refAtom
  rw [lin1_eq, lin1_eq, lin1_eq, lin1_eq, lin4_eq]
  rw [msg_pt Cert.ReferenceIdeal.Facts₀.bcast_S_S400000x256]
  exact atom_pt _ _ _

end Cert.KernelIdeal.Val

end
-- ==== Proof.lean ====
/-
  The certificate. The word-level kernel program and its idealization each run through four kernel launches among
  stretches of host operations: every execution ends, faults nowhere, and leaves the fourteen argument arrays as
  launched (the run modules). The reference is host operations only (its generated run). At the ideal values the
  kernel program's two results are the reference's: the atom-side launch computes the four linear layers as one
  product against the four transposed weights laid side by side, and each 256-column block of its output is one
  layer's image; the bond-side launch computes the fifth layer; the edge launch adds the gathered terms and applies
  max(·, 0) and the logistic gate; the host scatter-adds the gated messages; the last launch adds and applies
  max(·, 0). The reference computes the same five layers by host products, the same gathers at the same wrapped
  indices, the gate as 1 / (1 + exp(−·)), the same scatter-add, and the same two maxima with zero. No law of
  arithmetic is needed beyond reading both sides entry by entry, so the precondition (finite inputs) is not used.
  The ideal pass rewrote nothing, so the idealization claim is trivial.
-/
import proofs.«122269_j22239340658714_1_alg».proof.Defs
import proofs.«122269_j22239340658714_1_alg».proof.Proof.KKept
import proofs.«122269_j22239340658714_1_alg».proof.Proof.Kept
import proofs.«122269_j22239340658714_1_alg».proof.Proof.Fold
import proofs.«122269_j22239340658714_1_alg».proof.Proof.Bridge
import proofs.«122269_j22239340658714_1_alg».proof.Proof.Gen.ReferenceIdeal.Run
import proofs.«122269_j22239340658714_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Cert.KernelIdeal.Gen Cert.KernelIdeal.Fr Cert.KernelIdeal.Val in
/-- Both programs run; the kernel program ends with its two results at the last fold of its run, which are the
    terms of the argument arrays the fold module reads; the reference ends with its two results at its composed terms
    of the arguments; the arguments agree, and the terms are equal (the bridge). -/
theorem algebraic : Cert.algebraic_KernelIdeal_ReferenceIdeal := by
  intro m ρ m' ρ' _ hagree
  refine ⟨fun c => W8 m ρ c main_v40, fun c => W8 m ρ c main_v36_0, ?_, ?_⟩
  · exact (θ_run Cert.KernelIdeal.defs _ _).mono (fun r h c => ⟨
      h c _ (mem_uc main_v40 (by decide)), h c _ (mem_uc main_v36_0 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c)⟩)
      (run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13⟩ := hagree c
      simp only [e0, e1, e2, e3, e4, e5, e6, e7, e8, e9, e10, e11, e12, e13]
      rw [W8_v40]
      exact (atom_result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13))).symm
    · obtain ⟨e0, e1, e2, e3, e4, e5, e6, e7, e8, e9, e10, e11, e12, e13⟩ := hagree c
      simp only [e0, e1, e2, e3, e4, e5, e6, e7, e8, e9, e10, e11, e12, e13]
      rw [W8_v36_0]
      exact (bond_result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
